-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  reducesTo_S_S_d : S_.ReducesTo [] S_

variable [Facts]

def fn_part3 {F : FTy → Type} [FloatOps F] (main_arg12 : FVec F S_ .f32) (main_arg13 : FVec F S_ .f32) (main_v47 : IVec S_ 1) : IVec S_ 1 :=
  let main_v48 : FVec F S_ .f32 := Host.absf main_arg12
  let main_cst_22 : FVec F S_ .f32 := constant S_ .f32 0x7F800000#32
  let main_v49 : IVec S_ 1 := cmpf .olt main_v48 main_cst_22
  let main_c_23 : IVec S_ 1 := constantI S_ 1 1#1
  let main_v50 : IVec S_ 1 := (fun x v => Host.reduce IntOp.andi x v reducesTo_S_S_d h_S_) main_v49 main_c_23
  let main_v51 : IVec S_ 1 := andi main_v47 main_v50
  let main_v52 : FVec F S_ .f32 := Host.absf main_arg13
  let main_cst_24 : FVec F S_ .f32 := constant S_ .f32 0x7F800000#32
  let main_v53 : IVec S_ 1 := cmpf .olt main_v52 main_cst_24
  let main_c_25 : IVec S_ 1 := constantI S_ 1 1#1
  let main_v54 : IVec S_ 1 := (fun x v => Host.reduce IntOp.andi x v reducesTo_S_S_d h_S_) main_v53 main_c_25
  let main_v55 : IVec S_ 1 := andi main_v51 main_v54
  main_v55

def fn_part2 {F : FTy → Type} [FloatOps F] (main_arg8 : FVec F S_ .f32) (main_arg9 : FVec F S_ .f32) (main_arg10 : FVec F S_ .f32) (main_arg11 : FVec F S_ .f32) (main_arg12 : FVec F S_ .f32) (main_arg13 : FVec F S_ .f32) (main_v31 : IVec S_ 1) : IVec S_ 1 :=
  let main_v32 : FVec F S_ .f32 := Host.absf main_arg8
  let main_cst_14 : FVec F S_ .f32 := constant S_ .f32 0x7F800000#32
  let main_v33 : IVec S_ 1 := cmpf .olt main_v32 main_cst_14
  let main_c_15 : IVec S_ 1 := constantI S_ 1 1#1
  let main_v34 : IVec S_ 1 := (fun x v => Host.reduce IntOp.andi x v reducesTo_S_S_d h_S_) main_v33 main_c_15
  let main_v35 : IVec S_ 1 := andi main_v31 main_v34
  let main_v36 : FVec F S_ .f32 := Host.absf main_arg9
  let main_cst_16 : FVec F S_ .f32 := constant S_ .f32 0x7F800000#32
  let main_v37 : IVec S_ 1 := cmpf .olt main_v36 main_cst_16
  let main_c_17 : IVec S_ 1 := constantI S_ 1 1#1
  let main_v38 : IVec S_ 1 := (fun x v => Host.reduce IntOp.andi x v reducesTo_S_S_d h_S_) main_v37 main_c_17
  let main_v39 : IVec S_ 1 := andi main_v35 main_v38
  let main_v40 : FVec F S_ .f32 := Host.absf main_arg10
  let main_cst_18 : FVec F S_ .f32 := constant S_ .f32 0x7F800000#32
  let main_v41 : IVec S_ 1 := cmpf .olt main_v40 main_cst_18
  let main_c_19 : IVec S_ 1 := constantI S_ 1 1#1
  let main_v42 : IVec S_ 1 := (fun x v => Host.reduce IntOp.andi x v reducesTo_S_S_d h_S_) main_v41 main_c_19
  let main_v43 : IVec S_ 1 := andi main_v39 main_v42
  let main_v44 : FVec F S_ .f32 := Host.absf main_arg11
  let main_cst_20 : FVec F S_ .f32 := constant S_ .f32 0x7F800000#32
  let main_v45 : IVec S_ 1 := cmpf .olt main_v44 main_cst_20
  let main_c_21 : IVec S_ 1 := constantI S_ 1 1#1
  let main_v46 : IVec S_ 1 := (fun x v => Host.reduce IntOp.andi x v reducesTo_S_S_d h_S_) main_v45 main_c_21
  let main_v47 : IVec S_ 1 := andi main_v43 main_v46
  fn_part3 (F := F) main_arg12 main_arg13 main_v47

def fn_part1 {F : FTy → Type} [FloatOps F] (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_arg12 : FVec F S_ .f32) (main_arg13 : FVec F S_ .f32) (main_v15 : IVec S_ 1) : IVec S_ 1 :=
  let main_v16 : FVec F S_ .f32 := Host.absf main_arg4
  let main_cst_6 : FVec F S_ .f32 := constant S_ .f32 0x7F800000#32
  let main_v17 : IVec S_ 1 := cmpf .olt main_v16 main_cst_6
  let main_c_7 : IVec S_ 1 := constantI S_ 1 1#1
  let main_v18 : IVec S_ 1 := (fun x v => Host.reduce IntOp.andi x v reducesTo_S_S_d h_S_) main_v17 main_c_7
  let main_v19 : IVec S_ 1 := andi main_v15 main_v18
  let main_v20 : FVec F S_ .f32 := Host.absf main_arg5
  let main_cst_8 : FVec F S_ .f32 := constant S_ .f32 0x7F800000#32
  let main_v21 : IVec S_ 1 := cmpf .olt main_v20 main_cst_8
  let main_c_9 : IVec S_ 1 := constantI S_ 1 1#1
  let main_v22 : IVec S_ 1 := (fun x v => Host.reduce IntOp.andi x v reducesTo_S_S_d h_S_) main_v21 main_c_9
  let main_v23 : IVec S_ 1 := andi main_v19 main_v22
  let main_v24 : FVec F S_ .f32 := Host.absf main_arg6
  let main_cst_10 : FVec F S_ .f32 := constant S_ .f32 0x7F800000#32
  let main_v25 : IVec S_ 1 := cmpf .olt main_v24 main_cst_10
  let main_c_11 : IVec S_ 1 := constantI S_ 1 1#1
  let main_v26 : IVec S_ 1 := (fun x v => Host.reduce IntOp.andi x v reducesTo_S_S_d h_S_) main_v25 main_c_11
  let main_v27 : IVec S_ 1 := andi main_v23 main_v26
  let main_v28 : FVec F S_ .f32 := Host.absf main_arg7
  let main_cst_12 : FVec F S_ .f32 := constant S_ .f32 0x7F800000#32
  let main_v29 : IVec S_ 1 := cmpf .olt main_v28 main_cst_12
  let main_c_13 : IVec S_ 1 := constantI S_ 1 1#1
  let main_v30 : IVec S_ 1 := (fun x v => Host.reduce IntOp.andi x v reducesTo_S_S_d h_S_) main_v29 main_c_13
  let main_v31 : IVec S_ 1 := andi main_v27 main_v30
  fn_part2 (F := F) main_arg8 main_arg9 main_arg10 main_arg11 main_arg12 main_arg13 main_v31

def fn {F : FTy → Type} [FloatOps F] (main_arg0 : FVec F S4000000 .f32) (main_arg1 : FVec F S_ .f32) (main_arg2 : FVec F S_ .f32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_arg12 : FVec F S_ .f32) (main_arg13 : FVec F S_ .f32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S_ .f32 := Host.absf main_arg3
  let main_cst_4 : FVec F S_ .f32 := constant S_ .f32 0x7F800000#32
  let main_v13 : IVec S_ 1 := cmpf .olt main_v12 main_cst_4
  let main_c_5 : IVec S_ 1 := constantI S_ 1 1#1
  let main_v14 : IVec S_ 1 := (fun x v => Host.reduce IntOp.andi x v reducesTo_S_S_d h_S_) main_v13 main_c_5
  let main_v15 : IVec S_ 1 := andi main_v11 main_v14
  fn_part1 (F := F) main_arg4 main_arg5 main_arg6 main_arg7 main_arg8 main_arg9 main_arg10 main_arg11 main_arg12 main_arg13 main_v15
-- ==== Kernel.lean ====
abbrev S4000000 : Shape := ⟨1, ![4000000]⟩
abbrev S_ : Shape := ⟨0, ![]⟩
abbrev S10x3125x128 : Shape := ⟨3, ![10, 3125, 128]⟩
abbrev S1x1 : Shape := ⟨2, ![1, 1]⟩
abbrev S1x3125x128 : Shape := ⟨3, ![1, 3125, 128]⟩
abbrev S3125x128 : Shape := ⟨2, ![3125, 128]⟩
abbrev S3125 : Shape := ⟨1, ![3125]⟩
abbrev S3125x1 : Shape := ⟨2, ![3125, 1]⟩
abbrev S1 : Shape := ⟨1, ![1]⟩
abbrev S3 : Shape := ⟨1, ![3]⟩

abbrev nBuf : Space → Nat
  | .hbm => 121
  | .vmem => 4
  | .smem => 0
  | _ => 0

abbrev bufTy : (tb : Table) → Fin (tcTables nBuf tb) → BufTy
  | .hbm, ⟨0, _⟩ => ⟨S4000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10x3125x128, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S1, .f32⟩
  | .hbm, ⟨118, _⟩ => ⟨S1, .f32⟩
  | .hbm, ⟨119, _⟩ => ⟨S1, .f32⟩
  | .hbm, ⟨120, _⟩ => ⟨S3, .f32⟩
  | .local _ .vmem, ⟨0, _⟩ => ⟨S1x3125x128, .f32⟩
  | .local _ .vmem, ⟨1, _⟩ => ⟨S1x3125x128, .f32⟩
  | .local _ .vmem, ⟨2, _⟩ => ⟨S1x1, .f32⟩
  | .local _ .vmem, ⟨3, _⟩ => ⟨S1x1, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_call0_v0 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_call1_v0 : Ref sig .tc := ⟨.hbm, 87, rfl⟩
abbrev main_v55 : Ref sig .tc := ⟨.hbm, 88, rfl⟩
abbrev main_cst_16 : Ref sig .tc := ⟨.hbm, 89, rfl⟩
abbrev main_v56 : Ref sig .tc := ⟨.hbm, 90, rfl⟩
abbrev main_v57 : Ref sig .tc := ⟨.hbm, 91, rfl⟩
abbrev main_cst_17 : Ref sig .tc := ⟨.hbm, 92, rfl⟩
abbrev main_v58 : Ref sig .tc := ⟨.hbm, 93, rfl⟩
abbrev main_cst_18 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_20 : Ref sig .tc := ⟨.hbm, 107, rfl⟩
abbrev main_v70 : Ref sig .tc := ⟨.hbm, 108, rfl⟩
abbrev main_cst_21 : Ref sig .tc := ⟨.hbm, 109, rfl⟩
abbrev main_v71 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3125x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4000000_S10x3125x128 : S4000000.ShapeCasts S10x3125x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3125x128_S1x3125x128_0_0_0 : ∀ a, (![0, 0, 0] : Fin 3 → Nat) a + S1x3125x128.size a ≤ S1x3125x128.size a
  h_S1x3125x128 : 0 < S1x3125x128.numel
  shapeCasts_S1x3125x128_S3125x128 : S1x3125x128.ShapeCasts S3125x128
  reduces_S3125x128_S3125 : S3125x128.Reduces [1] S3125
  shapeCasts_S3125_S3125x1 : S3125.ShapeCasts S3125x1
  reduces_S3125x1_S1 : S3125x1.Reduces [0] S1
  shapeCasts_S1_S1x1 : S1.ShapeCasts S1x1
  shapeCasts_S1x1_S_ : S1x1.ShapeCasts S_
  slices_S4000000_S1_3999997 : S4000000.Slices ![3999997] S1
  shapeCasts_S1_S_ : S1.ShapeCasts S_
  slices_S4000000_S1_3999998 : S4000000.Slices ![3999998] S1
  slices_S4000000_S1_3999999 : S4000000.Slices ![3999999] S1
  bcast_S_S1 : S_.BroadcastsInDim S1 (![] : Fin 0 → Fin S1.rank)
  concatenates_S1_S1_S1_S3_d0 : Shape.Concatenates [S1, S1, S1] S3 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3125x128.size a ≤ S10x3125x128.size a
  hwx0_0 : ∀ i : grid0.Coords, EltTy.bits .f32 = 32 ∨ (Rect.block (s := S10x3125x128) S1x3125x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S1x3125x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4000000 : Shape := ⟨1, ![4000000]⟩
abbrev S_ : Shape := ⟨0, ![]⟩
abbrev S1 : Shape := ⟨1, ![1]⟩
abbrev S4000001 : Shape := ⟨1, ![4000001]⟩
abbrev S3999999 : Shape := ⟨1, ![3999999]⟩
abbrev S3 : Shape := ⟨1, ![3]⟩

abbrev nBuf : Space → Nat
  | .hbm => 113
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S4000001, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S1, .f32⟩
  | .hbm, ⟨48, _⟩ => ⟨S4000001, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .i1⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S_, .f32⟩
  | .hbm, ⟨83, _⟩ => ⟨S1, .f32⟩
  | .hbm, ⟨84, _⟩ => ⟨S3999999, .f32⟩
  | .hbm, ⟨85, _⟩ => ⟨S4000000, .f32⟩
  | .hbm, ⟨86, _⟩ => ⟨S4000000, .f32⟩
  | .hbm, ⟨87, _⟩ => ⟨S4000000, .f32⟩
  | .hbm, ⟨88, _⟩ => ⟨S4000000, .f32⟩
  | .hbm, ⟨89, _⟩ => ⟨S4000000, .f32⟩
  | .hbm, ⟨90, _⟩ => ⟨S4000000, .f32⟩
  | .hbm, ⟨91, _⟩ => ⟨S4000000, .f32⟩
  | .hbm, ⟨92, _⟩ => ⟨S4000000, .f32⟩
  | .hbm, ⟨93, _⟩ => ⟨S4000000, .f32⟩
  | .hbm, ⟨94, _⟩ => ⟨S_, .f32⟩
  | .hbm, ⟨95, _⟩ => ⟨S4000000, .f32⟩
  | .hbm, ⟨96, _⟩ => ⟨S4000000, .f32⟩
  | .hbm, ⟨97, _⟩ => ⟨S_, .f32⟩
  | .hbm, ⟨98, _⟩ => ⟨S4000000, .f32⟩
  | .hbm, ⟨99, _⟩ => ⟨S4000000, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4000000, .f32⟩
  | .hbm, ⟨106, _⟩ => ⟨S4000000, .f32⟩
  | .hbm, ⟨107, _⟩ => ⟨S1, .f32⟩
  | .hbm, ⟨108, _⟩ => ⟨S_, .f32⟩
  | .hbm, ⟨109, _⟩ => ⟨S1, .f32⟩
  | .hbm, ⟨110, _⟩ => ⟨S1, .f32⟩
  | .hbm, ⟨111, _⟩ => ⟨S1, .f32⟩
  | .hbm, ⟨112, _⟩ => ⟨S3, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v21 : Ref sig .tc := ⟨.hbm, 46, rfl⟩
abbrev main_v22 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_cst_11 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_12 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  reducesTo_S4000000_S_d0 : S4000000.ReducesTo [0] S_
  h_S_ : 0 < S_.numel
  slices_S4000000_S1_0 : S4000000.Slices ![0] S1
  concatenates_S1_S4000000_S4000001_d0 : Shape.Concatenates [S1, S4000000] S4000001 0
  slices_S4000001_S4000000_1 : S4000001.Slices ![1] S4000000
  slices_S4000001_S4000000_0 : S4000001.Slices ![0] S4000000
  slices_S4000000_S1_3999999 : S4000000.Slices ![3999999] S1
  concatenates_S4000000_S1_S4000001_d0 : Shape.Concatenates [S4000000, S1] S4000001 0
  bcast_S_S4000000 : S_.BroadcastsInDim S4000000 (![] : Fin 0 → Fin S4000000.rank)
  bcast_S_S1 : S_.BroadcastsInDim S1 (![] : Fin 0 → Fin S1.rank)
  slices_S4000000_S3999999_0 : S4000000.Slices ![0] S3999999
  concatenates_S1_S3999999_S4000000_d0 : Shape.Concatenates [S1, S3999999] S4000000 0
  shapeCasts_S1_S_ : S1.ShapeCasts S_
  concatenates_S1_S1_S1_S3_d0 : Shape.Concatenates [S1, S1, S1] S3 0

variable [Facts₀]

class Facts : Prop extends Facts₀ where

variable [Facts]
-- ==== Proof.KernelKit.lean ====
/-
  The summing kernel's program around its one region, stated once for any float instance: what the core's buffers hold when
  the region is entered (the areas re-laid as ten slabs of 3125 × 128), the five stretches of scalar host lines that follow
  the region and why they can run there (they touch unscoped buffers only, allocate nothing, and never write the slab array
  or the kernel's one-entry result), the slab the region fetches at each of its ten points, which points reset the running
  sum (the first) and which copy it out (the last), and how the frame claim's post follows from the region's run.
-/
import proofs.«144539_j80857054314543_1_alg».proof.Proof.Gen.Kernel.Launch
import proofs.«144539_j80857054314543_1_alg».proof.Proof.Gen.Kernel.Skeleton
import proofs.«144539_j80857054314543_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the one line that re-lays the areas. -/
abbrev entry (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entry m c (Proc.devRef .tc b)

/-- The lines after the region: three stretches of @main's scalar algebra with the two limiter selections between them. -/
abbrev later : List (List (HloOp τ sig (Elt F))) := [hostOps1, hostOps1_1, hostOps1_2, hostOps1_3, hostOps1_4]

/-- @main is the re-laying line, the region, then the later lines: it reduces to the region continued by them. -/
theorem reduces_to_region (𝒱₀ : Variants) :
    Pipeline.HMainK (Ix := Unit) (Name := ℕ) (U := UR sig nD τ) (Lvl := ℕ) cfgs 0 defs₀ 𝒱₀ m (main (F := F)) (entryAt m)
      (fun _ => Pipeline.chain ((later (F := F)).map StableHlo.seq)) :=
  Pipeline.hmain_around cfgs 0 defs₀ 𝒱₀ m main [hostOps0] later
    (by simp only [List.Forall]; exact hostOps0_sub) (by simp only [List.Forall]; rfl) main_chain

/-- Every later line's buffers are TensorCore references. -/
theorem later_tc : ∀ ops ∈ (later : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop

/-- So they touch only the region's two arrays and the buffers that bypass it: nothing is prefetched, and every unscoped
    reference is one or the other. -/
theorem later_within : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (later_tc ops hops op hop)

/-- The buffers no later line writes: the fourteen arguments, the slab array and the kernel's one-entry result. -/
abbrev untouched : List (Ref sig .tc) :=
  [main_arg0, main_arg1, main_arg2, main_arg3, main_arg4, main_arg5, main_arg6, main_arg7, main_arg8, main_arg9,
   main_arg10, main_arg11, main_arg12, main_arg13, main_v0, main_v1]

/-- A line that allocates nothing and writes one buffer, which is none of those. -/
abbrev WritesAside (op : HloOp τ sig (Elt F)) : Prop :=
  op.fresh = ∅ ∧ ∃ y : Ref sig .tc, op.writes = {(y : DevRef τ sig)} ∧ y ∉ untouched

theorem writesAside_not_mem {op : HloOp τ sig (Elt F)} (h : WritesAside op) {b : Ref sig .tc} (hb : b ∈ untouched) :
    Proc.devRef .tc b ∉ op.writes := by
  obtain ⟨-, y, hw, hy⟩ := h
  rw [hw, Finset.mem_singleton]
  exact StableHlo.devRef_ne_of_ne fun e => hy (e ▸ hb)

theorem writesAside_keeps {op : HloOp τ sig (Elt F)} (h : WritesAside op) :
    ∀ w, Proc.devRef .tc (Pipeline.arrRef spec0 w) ∉ op.writes := by
  intro w
  fin_cases w
  · exact writesAside_not_mem h (by decide)
  · exact writesAside_not_mem h (by decide)

theorem hostOps1_aside : (hostOps1 : List (HloOp τ sig (Elt F))).Forall WritesAside := by
  simp only [List.Forall]; repeat' apply And.intro
  all_goals first | rfl | exact ⟨_, rfl, by decide⟩
theorem hostOps1_1_aside : (hostOps1_1 : List (HloOp τ sig (Elt F))).Forall WritesAside := by
  simp only [List.Forall]; repeat' apply And.intro
  all_goals first | rfl | exact ⟨_, rfl, by decide⟩
theorem hostOps1_2_aside : (hostOps1_2 : List (HloOp τ sig (Elt F))).Forall WritesAside := by
  simp only [List.Forall]; repeat' apply And.intro
  all_goals first | rfl | exact ⟨_, rfl, by decide⟩
theorem hostOps1_3_aside : (hostOps1_3 : List (HloOp τ sig (Elt F))).Forall WritesAside := by
  simp only [List.Forall]; repeat' apply And.intro
  all_goals first | rfl | exact ⟨_, rfl, by decide⟩
theorem hostOps1_4_aside : (hostOps1_4 : List (HloOp τ sig (Elt F))).Forall WritesAside := by
  simp only [List.Forall]; repeat' apply And.intro
  all_goals first | rfl | exact ⟨_, rfl, by decide⟩

theorem later_aside : ∀ ops ∈ (later : List (List (HloOp τ sig (Elt F)))), ∀ op ∈ ops, WritesAside op := by
  intro ops hops op hop
  simp only [List.mem_cons, List.mem_nil_iff, or_false] at hops
  rcases hops with rfl | rfl | rfl | rfl | rfl
  · exact (List.forall_iff_forall_mem.mp hostOps1_aside) op hop
  · exact (List.forall_iff_forall_mem.mp hostOps1_1_aside) op hop
  · exact (List.forall_iff_forall_mem.mp hostOps1_2_aside) op hop
  · exact (List.forall_iff_forall_mem.mp hostOps1_3_aside) op hop
  · exact (List.forall_iff_forall_mem.mp hostOps1_4_aside) op hop

/-- The later lines allocate nothing, -/
theorem later_allocates_nothing : ∀ ops ∈ (later : List (List (HloOp τ sig (Elt F)))), ∀ op ∈ ops, op.fresh = ∅ :=
  fun ops hops op hop => (later_aside ops hops op hop).1
/-- and write neither array of the region. -/
theorem later_keeps_arrays : ∀ ops ∈ (later : List (List (HloOp τ sig (Elt F)))), ∀ op ∈ ops,
    ∀ w, Proc.devRef .tc (Pipeline.arrRef spec0 w) ∉ op.writes :=
  fun ops hops op hop => writesAside_keeps (later_aside ops hops op hop)

/-- A buffer no later line writes holds after them what it held at the region's exit. -/
theorem later_keeps (W : Valuation τ sig (Elt F)) {b : Ref sig .tc} (hb : b ∈ untouched) :
    StableHlo.after (later (F := F)).flatten W (Proc.devRef .tc b) = W (Proc.devRef .tc b) :=
  StableHlo.after_of_forall_not_mem _ _ fun op hop => by
    obtain ⟨ops, hops, hop'⟩ := List.mem_flatten.mp hop
    exact writesAside_not_mem (later_aside ops hops op hop') hb

/-- The re-laying line before the region writes the slab array only. -/
theorem entry_keeps (c : Dev nD) {b : Ref sig .tc} (hb : b ≠ main_v0) :
    entryAt m c b = m ((c : Thread nD τ).loc b) :=
  StableHlo.after_of_forall_not_mem _ _ fun op hop => by
    simp only [List.flatten_cons, List.flatten_nil, List.append_nil, List.mem_cons, List.mem_nil_iff, or_false] at hop
    subst hop
    rw [show (StableHlo.reshape main_arg0 main_v0 rfl shapeCasts_S4000000_S10x3125x128 : HloOp τ sig (Elt F)).writes = {(main_v0 : DevRef τ sig)} from rfl, Finset.mem_singleton]
    exact StableHlo.devRef_ne_of_ne hb

/-! ## The slabs -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The slab window's current staging buffer holds slab `t` at point `t` (every point fetches it), for any proof data over
    the entry contents whose body leaves the slab in place. -/
theorem slab_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first point": the body's first `scf.if`, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last point": the body's second `scf.if`. -/
abbrev isLast (i : grid0.Coords) : Prop := k0_cond2 i = 1#1
theorem isLast_iff : ∀ t : Fin cfg0.N, isLast (grid0.coords t) ↔ t.val = 9 :=
  (by decide +kernel : ∀ t : Fin grid0.N, isLast (grid0.coords t) ↔ t.val = 9)

/-- The slab window is live at every point; the result window is idle, and not written back, except at the last point. -/
theorem slab_live : ∀ t : Fin cfg0.N, cfg0.idle 0 (grid0.coords t) = false := by decide +kernel
theorem result_idle : ∀ t : Fin cfg0.N, ¬isLast (grid0.coords t) → cfg0.idle 1 (grid0.coords t) = true := by decide +kernel
theorem result_kept : ∀ t : Fin cfg0.N, ¬isLast (grid0.coords t) → (cfg0.win 1).flush t = false := by decide +kernel
theorem result_live : ∀ t : Fin cfg0.N, isLast (grid0.coords t) → cfg0.idle 1 (grid0.coords t) = false := by decide +kernel

/-! ## The memrefs the body is called with -/

abbrev slabRef (t : Fin cfg0.N) : Memref sig .tc .vmem S1x3125x128 .f32 := win0_0.stage (cfg0.slots t 0)
abbrev slabRef_whole (t : Fin cfg0.N) : (slabRef t).IsWhole := hstage0_0 ((cfg0.slots t 0).cast nbuf0_0)
abbrev outRef (t : Fin cfg0.N) : Memref sig .tc .vmem S1x1 .f32 := win0_1.stage (cfg0.slots t 1)
abbrev outRef_whole (t : Fin cfg0.N) : (outRef t).IsWhole := hstage0_1 ((cfg0.slots t 1).cast nbuf0_1)
/-- The running sum's scratch cell. -/
abbrev accRef : Memref sig .tc .vmem S1x1 .f32 := Memref.whole cc0_scratch0
abbrev accView : View sig .tc .vmem S1x1 .f32 := accRef.view
abbrev outView : View sig .tc .vmem S1x1 .f32 := (Memref.whole cc0_stg1_0 : Memref sig .tc .vmem S1x1 .f32).view

/-- What the launch lends the region besides the windows: the scratch cell at some contents and the generator register. -/
theorem lent_eq (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

end Cert.Kernel.Around

end
-- ==== Proof.KernelRuns.lean ====
/-
  The kernel body run whole, once for each kind of grid point, on any whole staging memrefs and for any float instance: the
  first point (reset the cell, add the slab's total), a middle point (add the slab's total), the last point (add, then copy
  the cell out).  Each run is handed the slab's buffer at known contents and returns it as it was; what the stores leave in the
  cell (and, at the last point, in the result's buffer) is recorded as the list of written pieces the run ends with.
-/
import proofs.«144539_j80857054314543_1_alg».proof.Proof.KernelKit

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the FIRST point (it resets the cell, adds the slab's total, copies nothing out), on any whole memrefs: the slab's
    buffer at `x`, the result's buffer at `xo` (handed back untouched), the cell at anything.  It runs to the continuation with
    the cell written by the pieces `LS` the run leaves (the reset, then the update). -/
noncomputable def firstPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : isFirst i) (hl : ¬isLast i) (x : Vec F S1x3125x128 .f32) :
    { LS : List (View.Piece (Elt F) S1x1 .f32) //
      ∀ (xo : Vec F S1x1 .f32) (E : Set ℕ) (K : PUnit → sProp 𝕄),
        iprop(owns (c : Thread nD τ) arg1 fullShare x ∗ owns (c : Thread nD τ) arg2 fullShare xo ∗ (∃ d, owns (c : Thread nD τ) arg3 fullShare d)
            ∗ (iprop(owns (c : Thread nD τ) arg1 fullShare x ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xo E K => ?run⟩
  case run =>
    simp only [cc0__sum_kernel_eq_skeleton]; unfold cc0__sum_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- The body at a point that is neither first nor last (it adds the slab's total to the cell), on any whole memrefs: the cell at
    `xs`, what the point before left. -/
noncomputable def midPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : ¬isFirst i) (hl : ¬isLast i) (x : Vec F S1x3125x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x ∗ owns (c : Thread nD τ) arg2 fullShare xo ∗ owns (c : Thread nD τ) arg3 fullShare xs
            ∗ (iprop(owns (c : Thread nD τ) arg1 fullShare x ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xo E K => ?run⟩
  case run =>
    simp only [cc0__sum_kernel_eq_skeleton]; unfold cc0__sum_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- The body at the LAST point (it adds the slab's total to the cell, then copies the cell into the result's buffer), on any
    whole memrefs: the cell at `xs`, the result's buffer at anything; it leaves the result's buffer written by the pieces `LO`
    and the cell by `LS`. -/
noncomputable def lastPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : ¬isFirst i) (hl : isLast i) (x : Vec F S1x3125x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare xs
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hf | exact hl)
    sl_step
    iapply Hk
    isplitl [H0]
    · iexists _; isplitr; · ipureintro; exact harg1.read_unread _
      iexact H0
    isplitl [H1]; · iexists _; iexact H1
    iexists _; iexact HS

end Cert.Kernel.Around

end
-- ==== Proof.KernelFrame.lean ====
/-
  The frame of the summing program, for any float instance.  The region has ten points; the kernel keeps a running sum in a
  one-entry scratch cell: the first point resets it and adds slab 0's total, every later point adds its slab's total, and the
  last point copies the cell into the result's staging buffer, which only then is written back.  So the proof data say: the slab
  window's buffer holds slab `t` at point `t`; the cell after point `n` holds `cellAfter n` (a recursion on the point through
  the three kinds of point); the result's buffer matters at the last point only.  The region's invariant carries the cell at
  `cellAfter` from point to point; it starts from, and is forgotten back into, "the cell at anything".  The launch then runs
  @main: the re-laying line, the region, the scalar lines.
-/
import proofs.«144539_j80857054314543_1_alg».proof.Proof.KernelRuns

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

section Pieces
variable (c : Dev nD) (i : grid0.Coords) (arg1 : Memref sig .tc .vmem S1x3125x128 .f32) (harg1 : arg1.IsWhole)
  (arg2 : Memref sig .tc .vmem S1x1 .f32) (harg2 : arg2.IsWhole) (arg3 : Memref sig .tc .vmem S1x1 .f32) (harg3 : arg3.IsWhole)
  (x : Vec F S1x3125x128 .f32) (xs : Vec F S1x1 .f32)

/-- The pieces the first point writes into the cell cover it, -/
theorem firstCell_cover (hf : isFirst i) (hl : ¬isLast i) (y : S1x1.Idx) :
    ∃ pc ∈ (firstPoint c i arg1 harg1 arg2 harg2 arg3 harg3 hf hl x).1, y ∈ pc.1.set :=
  View.cover_of_tiledL (firstPoint c i arg1 harg1 arg2 harg2 arg3 harg3 hf hl x).1 S1x1.size (by sl_kernel_rfl) y
/-- so the cell afterwards is those pieces read back. -/
def firstCell (hf : isFirst i) (hl : ¬isLast i) : Vec F S1x1 .f32 :=
  accView.read (Elt F) (accView.writes (Elt F) accView.junk (firstPoint c i arg1 harg1 arg2 harg2 arg3 harg3 hf hl x).1)

theorem midCell_cover (hf : ¬isFirst i) (hl : ¬isLast i) (y : S1x1.Idx) :
    ∃ pc ∈ (midPoint c i arg1 harg1 arg2 harg2 arg3 harg3 hf hl x xs).1, y ∈ pc.1.set :=
  View.cover_of_tiledL (midPoint c i arg1 harg1 arg2 harg2 arg3 harg3 hf hl x xs).1 S1x1.size (by sl_kernel_rfl) y
def midCell (hf : ¬isFirst i) (hl : ¬isLast i) : Vec F S1x1 .f32 :=
  accView.read (Elt F) (accView.writes (Elt F) accView.junk (midPoint c i arg1 harg1 arg2 harg2 arg3 harg3 hf hl x xs).1)

theorem lastCell_cover (hf : ¬isFirst i) (hl : isLast i) (y : S1x1.Idx) :
    ∃ pc ∈ (lastPoint c i arg1 harg1 arg2 harg2 arg3 harg3 hf hl x xs).2.1, y ∈ pc.1.set :=
  View.cover_of_tiledL (lastPoint c i arg1 harg1 arg2 harg2 arg3 harg3 hf hl x xs).2.1 S1x1.size (by sl_kernel_rfl) y
def lastCell (hf : ¬isFirst i) (hl : isLast i) : Vec F S1x1 .f32 :=
  accView.read (Elt F) (accView.writes (Elt F) accView.junk (lastPoint c i arg1 harg1 arg2 harg2 arg3 harg3 hf hl x xs).2.1)

/-- The last point's one store into the result's buffer covers it; what it leaves there: -/
theorem lastOut_cover (hf : ¬isFirst i) (hl : isLast i) (y : S1x1.Idx) :
    ∃ pc ∈ (lastPoint c i arg1 harg1 arg2 harg2 arg3 harg3 hf hl x xs).1, y ∈ pc.1.set :=
  View.cover_of_tiledL (lastPoint c i arg1 harg1 arg2 harg2 arg3 harg3 hf hl x xs).1 S1x1.size (by sl_kernel_rfl) y
def lastOut (hf : ¬isFirst i) (hl : isLast i) : Vec F S1x1 .f32 :=
  outView.read (Elt F) (outView.writes (Elt F) outView.junk (lastPoint c i arg1 harg1 arg2 harg2 arg3 harg3 hf hl x xs).1)

end Pieces

/-! ## The running sum, point by point -/

theorem not_last_of_ne (t : Fin cfg0.N) (h : t.val ≠ 9) : ¬isLast (grid0.coords t) := fun hl => h ((isLast_iff t).mp hl)
theorem not_first_of_ne (t : Fin cfg0.N) (h : t.val ≠ 0) : ¬isFirst (grid0.coords t) := fun hf => h ((isFirst_iff t).mp hf)

/-- The cell after point `n`: after the first point, what the reset and slab 0 leave; after a later point, what adding that
    point's slab to the cell of the point before leaves (the last point adds like the others before it copies out). -/
def cellAfter (c : Dev nD) : (n : ℕ) → n < cfg0.N → Vec F S1x1 .f32
  | 0, hn => firstCell c (grid0.coords ⟨0, hn⟩) (slabRef ⟨0, hn⟩) (slabRef_whole ⟨0, hn⟩) (outRef ⟨0, hn⟩) (outRef_whole ⟨0, hn⟩) accRef (Memref.isWhole_whole _)
      (blockAt m c 0 ⟨0, hn⟩) ((isFirst_iff ⟨0, hn⟩).mpr rfl) (not_last_of_ne ⟨0, hn⟩ (by show (0 : ℕ) ≠ 9; omega))
  | n + 1, hn =>
    if h9 : n + 1 = 9 then
      lastCell c (grid0.coords ⟨n + 1, hn⟩) (slabRef ⟨n + 1, hn⟩) (slabRef_whole ⟨n + 1, hn⟩) (outRef ⟨n + 1, hn⟩) (outRef_whole ⟨n + 1, hn⟩) accRef (Memref.isWhole_whole _)
        (blockAt m c 0 ⟨n + 1, hn⟩) (cellAfter c n (Nat.lt_of_succ_lt hn)) (not_first_of_ne ⟨n + 1, hn⟩ (Nat.succ_ne_zero n)) ((isLast_iff ⟨n + 1, hn⟩).mpr h9)
    else
      midCell c (grid0.coords ⟨n + 1, hn⟩) (slabRef ⟨n + 1, hn⟩) (slabRef_whole ⟨n + 1, hn⟩) (outRef ⟨n + 1, hn⟩) (outRef_whole ⟨n + 1, hn⟩) accRef (Memref.isWhole_whole _)
        (blockAt m c 0 ⟨n + 1, hn⟩) (cellAfter c n (Nat.lt_of_succ_lt hn)) (not_first_of_ne ⟨n + 1, hn⟩ (Nat.succ_ne_zero n)) (not_last_of_ne ⟨n + 1, hn⟩ h9)

/-- What the result's staging buffer holds after the last point: the cell as that point updated it, copied. (At the other
    points the window is idle; the value named there is never consulted.) -/
def resultAfter (c : Dev nD) (t : Fin cfg0.N) : Vec F S1x1 .f32 :=
  if h : t.val = 9 ∧ t.val ≠ 0 then
    lastOut c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h.2) ((isLast_iff t).mpr h.1)
  else outView.read (Elt F) outView.junk

theorem cellAfter_zero (c : Dev nD) (t : Fin cfg0.N) (h0 : t.val = 0) :
    cellAfter m c t.val t.isLt = firstCell c (grid0.coords t) (slabRef t) (slabRef_whole t) (outRef t) (outRef_whole t) accRef (Memref.isWhole_whole _)
      (blockAt m c 0 t) ((isFirst_iff t).mpr h0) (not_last_of_ne t (by omega)) := by
  obtain ⟨n, hn⟩ := t
  cases n with
  | zero => rfl
  | succ n => exact absurd h0 (Nat.succ_ne_zero n)

theorem cellAfter_mid (c : Dev nD) (t : Fin cfg0.N) (h0 : t.val ≠ 0) (h9 : t.val ≠ 9) :
    cellAfter m c t.val t.isLt = midCell c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) (not_last_of_ne t h9) := by
  obtain ⟨n, hn⟩ := t
  cases n with
  | zero => exact absurd rfl h0
  | succ n => exact (dif_neg h9).trans rfl

theorem cellAfter_last (c : Dev nD) (t : Fin cfg0.N) (h0 : t.val ≠ 0) (h9 : t.val = 9) :
    cellAfter m c t.val t.isLt = lastCell c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) ((isLast_iff t).mpr h9) := by
  obtain ⟨n, hn⟩ := t
  cases n with
  | zero => exact absurd rfl h0
  | succ n => exact (dif_pos h9).trans rfl

theorem resultAfter_last (c : Dev nD) (t : Fin cfg0.N) (h0 : t.val ≠ 0) (h9 : t.val = 9) :
    resultAfter m c t = lastOut c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) ((isLast_iff t).mpr h9) :=
  dif_pos ⟨h9, h0⟩

/-! ## The invariant -/

/-- Before point `n`: at the start, what the launch lends (the cell at anything); afterwards the cell at what the point before
    left, and the generator register at some state. -/
def cellInv (c : Dev nD) : (n : ℕ) → n ≤ cfg0.N → sProp 𝕄
  | 0, _ => Pipeline.ΦA spec0 c
  | n + 1, hn => iprop(iprop(owns (c : Thread nD τ) accRef fullShare (cellAfter m c n hn)) ∗ (∃ r, prngReg c r))

theorem cellInv_zero (c : Dev nD) (n : ℕ) (h : n ≤ cfg0.N) (hz : n = 0) : cellInv m c n h = Pipeline.ΦA spec0 c := by
  subst hz; rfl
theorem cellInv_succ (c : Dev nD) (n : ℕ) (hn : n < cfg0.N) :
    cellInv m c (n + 1) hn = iprop(iprop(owns (c : Thread nD τ) accRef fullShare (cellAfter m c n hn)) ∗ (∃ r, prngReg c r)) := rfl
theorem cellInv_pos (c : Dev nD) (n : ℕ) (h : n ≤ cfg0.N) (hz : n ≠ 0) :
    cellInv m c n h = iprop(iprop(owns (c : Thread nD τ) accRef fullShare (cellAfter m c (n - 1) (by omega))) ∗ (∃ r, prngReg c r)) := by
  cases n with
  | zero => exact absurd rfl hz
  | succ n => rfl

/-! ## The proof data -/

/-- The region's proof data on core `c`: the arrays as the region finds them; after the body the slab window's buffer at its
    slab and the result's at `resultAfter`; the invariant above; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => resultAfter m c t
  Φ t := cellInv m c t.val (Nat.le_of_lt_succ t.isLt)
  q _ := fullShare
  owed _ := 0

theorem dats_A (c : Dev nD) (w : Fin cfg0.W) : (dats m 0 c).A w = entryAt m c (Pipeline.arrRef spec0 w) := by
  dsimp only [dats]
theorem dats_inv_castSucc (c : Dev nD) (t : Fin cfg0.N) :
    (dats m 0 c).Φ t.castSucc = cellInv m c t.val (Nat.le_of_lt t.isLt) := by
  dsimp only [dats]; simp only [Fin.coe_castSucc]
theorem dats_after_slab (c : Dev nD) (t : Fin cfg0.N) : (dats m 0 c).after 0 t = blockAt m c 0 t := by dsimp only [dats]
theorem dats_after_result (c : Dev nD) (t : Fin cfg0.N) : (dats m 0 c).after 1 t = resultAfter m c t := by dsimp only [dats]
theorem dats_before_slab (c : Dev nD) (t : Fin cfg0.N) (d) : (dats m 0 c).before 0 t d = blockAt m c 0 t :=
  slab_found m (dats m 0 c) (dats_A m c 0) (dats_after_slab m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (slabRef t) fullShare ((dats m 0 c).before 0 t d))
    ∗ (∃ d, owns (c : Thread nD τ) (outRef t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point.  The slab's buffer holds slab `t`; by the point's number it is a first, a middle or the last point;
    the invariant lends the cell (at anything at the first point, else at what the point before left) and takes it back at this
    point's `cellAfter`; the result's buffer goes back untouched except at the last point, where it holds the copied cell. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_slab]
  rw [show (dats m 0 c).owesAt () t.succ = (dats m 0 c).owesAt () t.castSucc from rfl]
  rw [show (dats m 0 c).Φ t.succ = cellInv m c (t.val + 1) t.isLt from rfl, cellInv_succ]
  rw [show (dats m 0 c).leavesExact 0 t = owns (c : Thread nD τ) (slabRef t) fullShare ((dats m 0 c).after 0 t) from by
    unfold Dat.leavesExact; rw [slab_live t], dats_after_slab]
  have hN : t.val < 10 := lt_of_lt_of_eq t.isLt (show cfg0.N = 10 from N_0)
  by_cases h0 : t.val = 0
  · -- the first point
    have hl : ¬isLast (grid0.coords t) := not_last_of_ne t (by omega)
    rw [Dat.leavesExact_idle (dats m 0 c) 1 t (result_idle t hl) (result_kept t hl)]
    rw [cellAfter_zero m c t h0]
    unfold firstCell; (try dsimp only)
    rw [dats_inv_castSucc m c t, cellInv_zero m c _ _ h0, lent_eq]
    iintro ⟨⟨HS, Hg⟩, Ho, ⟨%d0, H0⟩, ⟨%d1, H1⟩⟩
    iapply ((firstPoint c (grid0.coords t) _ _ _ _ _ _ ((isFirst_iff t).mpr h0) hl (blockAt m c 0 t)).2 _ Set.univ _)
    isplitl [H0]; · iexact H0
    isplitl [H1]; · iexact H1
    isplitl [HS]; · iexact HS
    iintro ⟨H0, H1, ⟨%es, HS⟩⟩
    isplitl [HS Hg]
    · isplitl [HS]
      · unfold owns; iexists _; isplitr
        swap; · iexact HS
        ipureintro; exact View.read_writes_of_cover _ _ _ _ _ (firstCell_cover c _ _ _ _ _ _ _ _ _ _)
      iexact Hg
    isplitl [Ho]; · iexact Ho
    isplitl [H0]; · iexact H0
    iexists _; iexact H1
  · have hf : ¬isFirst (grid0.coords t) := not_first_of_ne t h0
    by_cases h9 : t.val = 9
    · -- the last point
      have hl : isLast (grid0.coords t) := (isLast_iff t).mpr h9
      rw [show (dats m 0 c).leavesExact 1 t = owns (c : Thread nD τ) (outRef t) fullShare ((dats m 0 c).after 1 t) from by
        unfold Dat.leavesExact; rw [result_live t hl], dats_after_result]
      rw [cellAfter_last m c t h0 h9, resultAfter_last m c t h0 h9]
      unfold lastCell lastOut; (try dsimp only)
      rw [dats_inv_castSucc m c t, cellInv_pos m c _ _ h0]
      iintro ⟨⟨HS, Hg⟩, Ho, ⟨%d0, H0⟩, ⟨%d1, H1⟩⟩
      iapply ((lastPoint c (grid0.coords t) _ _ _ _ _ _ hf hl (blockAt m c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hg]
      · isplitl [HS]
        · unfold owns; iexists _; isplitr
          swap; · iexact HS
          ipureintro; exact View.read_writes_of_cover _ _ _ _ _ (lastCell_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (lastOut_cover c _ _ _ _ _ _ _ _ _ _ _)
    · -- a middle point
      have hl : ¬isLast (grid0.coords t) := not_last_of_ne t h9
      rw [Dat.leavesExact_idle (dats m 0 c) 1 t (result_idle t hl) (result_kept t hl)]
      rw [cellAfter_mid m c t h0 h9]
      unfold midCell; (try dsimp only)
      rw [dats_inv_castSucc m c t, cellInv_pos m c _ _ h0]
      iintro ⟨⟨HS, Hg⟩, Ho, ⟨%d0, H0⟩, ⟨%d1, H1⟩⟩
      iapply ((midPoint c (grid0.coords t) _ _ _ _ _ _ hf hl (blockAt m c 0 t) _).2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (midCell_cover c _ _ _ _ _ _ _ _ _ _ _)
        iexact Hg
      isplitl [Ho]; · iexact Ho
      isplitl [H0]; · iexact H0
      iexists _; iexact H1

/-- The obligation the launch asks, at every point. -/
theorem body_obligation (c : Dev nD) : BodyObligation (dats (F := F) m 0 c) (defs₀ (F := F)) Variants.none () Set.univ := fun t => by
  rw [bigSep_W0, bigSep_W0]
  exact body_sound m c t

/-- What the launch lends is the invariant before the first point, -/
theorem inv_start (c : Dev nD) : Pipeline.ΦA spec0 c ⊢ (dats m 0 c).Φ 0 := by
  rw [show (dats m 0 c).Φ 0 = cellInv m c 0 (Nat.zero_le _) from rfl, cellInv_zero m c 0 _ rfl]
  try exact Idealize.SL.BI.Entails.refl _

/-- and after the last point the invariant gives it back, the cell's contents forgotten. -/
theorem inv_end (c : Dev nD) : (dats m 0 c).Φ (Fin.last cfg0.N) ⊢ Pipeline.ΦA spec0 c := by
  have hN : (Fin.last cfg0.N).val ≠ 0 := by rw [Fin.val_last]; have : cfg0.N = 10 := N_0; omega
  rw [show (dats m 0 c).Φ (Fin.last cfg0.N) = cellInv m c (Fin.last cfg0.N).val (Nat.le_of_lt_succ (Fin.last cfg0.N).isLt) from rfl,
    cellInv_pos m c _ _ hN, lent_eq]
  iintro ⟨HS, Hg⟩
  isplitl [HS]
  · iexists _; iexact HS
  iexact Hg

/-! ## The run -/

set_option backward.isDefEq.respectTransparency.types false in
/-- Every weakly fair execution of @main ends, faulting nowhere, with the two arrays of the region at what the proof data
    compute and every other unscoped buffer at what the scalar lines leave from the region's exit. -/
theorem run_main : θ_run defs (onTc (τ := τ) (main (F := F))) (s₀ m ρ)
    (Pipeline.FramePost cfgs (dats m) 0 (Pipeline.afterTail₀ cfgs (dats m) 0 (entry m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := later) (hsub := later_within) (hfresh := later_allocates_nothing) (hkeep := later_keeps_arrays)
    (hmain := reduces_to_region m Variants.none) (hA := dats_A m) (hin := inv_start m) (hout := inv_end m)

/-- What a bypassing buffer that no line writes holds at the end: its launch contents. -/
theorem end_keeps (c : Dev nD) {b : Ref sig .tc} (hb : b ∈ untouched) (hv : b ≠ main_v0) (hv1 : b ≠ main_v1) :
    Pipeline.afterTail₀ cfgs (dats m) 0 (entry m) later c b = m ((c : Thread nD τ).loc b) := by
  unfold Pipeline.afterTail₀
  rw [later_keeps _ hb, Pipeline.withArrays_of_ne]
  · exact entry_keeps m c hv
  · intro w; fin_cases w
    · exact fun e => hv e.symm
    · exact fun e => hv1 e.symm

/-- An unscoped buffer that is neither array of the region bypasses it. -/
theorem bypasses (b : Ref sig .tc) (hs : b.isScoped = false) (h0 : b ≠ main_v0) (h1 : b ≠ main_v1) :
    b ∈ Pipeline.restRefs sig spec0 :=
  Pipeline.mem_restRefs_of b hs fun w => by
    fin_cases w
    · exact fun e => h0 e.symm
    · exact fun e => h1 e.symm

/-- At the end of the run the fourteen arguments are as they were. None is an array of the region and no line writes one, so each
    holds what the scalar lines leave of its launch contents: those contents. -/
theorem args_kept {r : PUnit × MemSt nD τ sig (Elt F)}
    (h : Pipeline.FramePost cfgs (dats m) 0 (Pipeline.afterTail₀ cfgs (dats m) 0 (entry m) later) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have at_end : ∀ b : Ref sig .tc, b ∈ untouched → b.isScoped = false → b ≠ main_v0 → b ≠ main_v1 →
      r.2.mem ((c.tc : Thread nD τ).loc b) = m ((c.tc : Thread nD τ).loc b) :=
    fun b hb hs h0 h1 => ((h c).2 b (bypasses b hs h0 h1)).trans (end_keeps m c hb h0 h1)
  exact ⟨at_end main_arg0 (by decide) rfl (by decide) (by decide), at_end main_arg1 (by decide) rfl (by decide) (by decide),
    at_end main_arg2 (by decide) rfl (by decide) (by decide), at_end main_arg3 (by decide) rfl (by decide) (by decide),
    at_end main_arg4 (by decide) rfl (by decide) (by decide), at_end main_arg5 (by decide) rfl (by decide) (by decide),
    at_end main_arg6 (by decide) rfl (by decide) (by decide), at_end main_arg7 (by decide) rfl (by decide) (by decide),
    at_end main_arg8 (by decide) rfl (by decide) (by decide), at_end main_arg9 (by decide) rfl (by decide) (by decide),
    at_end main_arg10 (by decide) rfl (by decide) (by decide), at_end main_arg11 (by decide) rfl (by decide) (by decide),
    at_end main_arg12 (by decide) rfl (by decide) (by decide), at_end main_arg13 (by decide) rfl (by decide) (by decide)⟩

/-- The frame claim's post: every weakly fair run ends, faulting nowhere, with the fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m h c) (run_main m ρ)

end Cert.Kernel.Around

end
-- ==== Proof.IdealKit.lean ====
/-
  The summing kernel's program around its one region, stated once for any float instance: what the core's buffers hold when
  the region is entered (the areas re-laid as ten slabs of 3125 × 128), the five stretches of scalar host lines that follow
  the region and why they can run there (they touch unscoped buffers only, allocate nothing, and never write the slab array
  or the kernel's one-entry result), the slab the region fetches at each of its ten points, which points reset the running
  sum (the first) and which copy it out (the last), and how the frame claim's post follows from the region's run.
-/
import proofs.«144539_j80857054314543_1_alg».proof.Proof.Gen.KernelIdeal.Launch
import proofs.«144539_j80857054314543_1_alg».proof.Proof.Gen.KernelIdeal.Skeleton
import proofs.«144539_j80857054314543_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the one line that re-lays the areas. -/
abbrev entry (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entry m c (Proc.devRef .tc b)

/-- The lines after the region: three stretches of @main's scalar algebra with the two limiter selections between them. -/
abbrev later : List (List (HloOp τ sig (Elt F))) := [hostOps1, hostOps1_1, hostOps1_2, hostOps1_3, hostOps1_4]

/-- @main is the re-laying line, the region, then the later lines: it reduces to the region continued by them. -/
theorem reduces_to_region (𝒱₀ : Variants) :
    Pipeline.HMainK (Ix := Unit) (Name := ℕ) (U := UR sig nD τ) (Lvl := ℕ) cfgs 0 defs₀ 𝒱₀ m (main (F := F)) (entryAt m)
      (fun _ => Pipeline.chain ((later (F := F)).map StableHlo.seq)) :=
  Pipeline.hmain_around cfgs 0 defs₀ 𝒱₀ m main [hostOps0] later
    (by simp only [List.Forall]; exact hostOps0_sub) (by simp only [List.Forall]; rfl) main_chain

/-- Every later line's buffers are TensorCore references. -/
theorem later_tc : ∀ ops ∈ (later : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop

/-- So they touch only the region's two arrays and the buffers that bypass it: nothing is prefetched, and every unscoped
    reference is one or the other. -/
theorem later_within : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (later_tc ops hops op hop)

/-- The buffers no later line writes: the fourteen arguments, the slab array and the kernel's one-entry result. -/
abbrev untouched : List (Ref sig .tc) :=
  [main_arg0, main_arg1, main_arg2, main_arg3, main_arg4, main_arg5, main_arg6, main_arg7, main_arg8, main_arg9,
   main_arg10, main_arg11, main_arg12, main_arg13, main_v0, main_v1]

/-- A line that allocates nothing and writes one buffer, which is none of those. -/
abbrev WritesAside (op : HloOp τ sig (Elt F)) : Prop :=
  op.fresh = ∅ ∧ ∃ y : Ref sig .tc, op.writes = {(y : DevRef τ sig)} ∧ y ∉ untouched

theorem writesAside_not_mem {op : HloOp τ sig (Elt F)} (h : WritesAside op) {b : Ref sig .tc} (hb : b ∈ untouched) :
    Proc.devRef .tc b ∉ op.writes := by
  obtain ⟨-, y, hw, hy⟩ := h
  rw [hw, Finset.mem_singleton]
  exact StableHlo.devRef_ne_of_ne fun e => hy (e ▸ hb)

theorem writesAside_keeps {op : HloOp τ sig (Elt F)} (h : WritesAside op) :
    ∀ w, Proc.devRef .tc (Pipeline.arrRef spec0 w) ∉ op.writes := by
  intro w
  fin_cases w
  · exact writesAside_not_mem h (by decide)
  · exact writesAside_not_mem h (by decide)

theorem hostOps1_aside : (hostOps1 : List (HloOp τ sig (Elt F))).Forall WritesAside := by
  simp only [List.Forall]; repeat' apply And.intro
  all_goals first | rfl | exact ⟨_, rfl, by decide⟩
theorem hostOps1_1_aside : (hostOps1_1 : List (HloOp τ sig (Elt F))).Forall WritesAside := by
  simp only [List.Forall]; repeat' apply And.intro
  all_goals first | rfl | exact ⟨_, rfl, by decide⟩
theorem hostOps1_2_aside : (hostOps1_2 : List (HloOp τ sig (Elt F))).Forall WritesAside := by
  simp only [List.Forall]; repeat' apply And.intro
  all_goals first | rfl | exact ⟨_, rfl, by decide⟩
theorem hostOps1_3_aside : (hostOps1_3 : List (HloOp τ sig (Elt F))).Forall WritesAside := by
  simp only [List.Forall]; repeat' apply And.intro
  all_goals first | rfl | exact ⟨_, rfl, by decide⟩
theorem hostOps1_4_aside : (hostOps1_4 : List (HloOp τ sig (Elt F))).Forall WritesAside := by
  simp only [List.Forall]; repeat' apply And.intro
  all_goals first | rfl | exact ⟨_, rfl, by decide⟩

theorem later_aside : ∀ ops ∈ (later : List (List (HloOp τ sig (Elt F)))), ∀ op ∈ ops, WritesAside op := by
  intro ops hops op hop
  simp only [List.mem_cons, List.mem_nil_iff, or_false] at hops
  rcases hops with rfl | rfl | rfl | rfl | rfl
  · exact (List.forall_iff_forall_mem.mp hostOps1_aside) op hop
  · exact (List.forall_iff_forall_mem.mp hostOps1_1_aside) op hop
  · exact (List.forall_iff_forall_mem.mp hostOps1_2_aside) op hop
  · exact (List.forall_iff_forall_mem.mp hostOps1_3_aside) op hop
  · exact (List.forall_iff_forall_mem.mp hostOps1_4_aside) op hop

/-- The later lines allocate nothing, -/
theorem later_allocates_nothing : ∀ ops ∈ (later : List (List (HloOp τ sig (Elt F)))), ∀ op ∈ ops, op.fresh = ∅ :=
  fun ops hops op hop => (later_aside ops hops op hop).1
/-- and write neither array of the region. -/
theorem later_keeps_arrays : ∀ ops ∈ (later : List (List (HloOp τ sig (Elt F)))), ∀ op ∈ ops,
    ∀ w, Proc.devRef .tc (Pipeline.arrRef spec0 w) ∉ op.writes :=
  fun ops hops op hop => writesAside_keeps (later_aside ops hops op hop)

/-- A buffer no later line writes holds after them what it held at the region's exit. -/
theorem later_keeps (W : Valuation τ sig (Elt F)) {b : Ref sig .tc} (hb : b ∈ untouched) :
    StableHlo.after (later (F := F)).flatten W (Proc.devRef .tc b) = W (Proc.devRef .tc b) :=
  StableHlo.after_of_forall_not_mem _ _ fun op hop => by
    obtain ⟨ops, hops, hop'⟩ := List.mem_flatten.mp hop
    exact writesAside_not_mem (later_aside ops hops op hop') hb

/-- The re-laying line before the region writes the slab array only. -/
theorem entry_keeps (c : Dev nD) {b : Ref sig .tc} (hb : b ≠ main_v0) :
    entryAt m c b = m ((c : Thread nD τ).loc b) :=
  StableHlo.after_of_forall_not_mem _ _ fun op hop => by
    simp only [List.flatten_cons, List.flatten_nil, List.append_nil, List.mem_cons, List.mem_nil_iff, or_false] at hop
    subst hop
    rw [show (StableHlo.reshape main_arg0 main_v0 rfl shapeCasts_S4000000_S10x3125x128 : HloOp τ sig (Elt F)).writes = {(main_v0 : DevRef τ sig)} from rfl, Finset.mem_singleton]
    exact StableHlo.devRef_ne_of_ne hb

/-! ## The slabs -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The slab window's current staging buffer holds slab `t` at point `t` (every point fetches it), for any proof data over
    the entry contents whose body leaves the slab in place. -/
theorem slab_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body -/

/-- "This is the first point": the body's first `scf.if`, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last point": the body's second `scf.if`. -/
abbrev isLast (i : grid0.Coords) : Prop := k0_cond2 i = 1#1
theorem isLast_iff : ∀ t : Fin cfg0.N, isLast (grid0.coords t) ↔ t.val = 9 :=
  (by decide +kernel : ∀ t : Fin grid0.N, isLast (grid0.coords t) ↔ t.val = 9)

/-- The slab window is live at every point; the result window is idle, and not written back, except at the last point. -/
theorem slab_live : ∀ t : Fin cfg0.N, cfg0.idle 0 (grid0.coords t) = false := by decide +kernel
theorem result_idle : ∀ t : Fin cfg0.N, ¬isLast (grid0.coords t) → cfg0.idle 1 (grid0.coords t) = true := by decide +kernel
theorem result_kept : ∀ t : Fin cfg0.N, ¬isLast (grid0.coords t) → (cfg0.win 1).flush t = false := by decide +kernel
theorem result_live : ∀ t : Fin cfg0.N, isLast (grid0.coords t) → cfg0.idle 1 (grid0.coords t) = false := by decide +kernel

/-! ## The memrefs the body is called with -/

abbrev slabRef (t : Fin cfg0.N) : Memref sig .tc .vmem S1x3125x128 .f32 := win0_0.stage (cfg0.slots t 0)
abbrev slabRef_whole (t : Fin cfg0.N) : (slabRef t).IsWhole := hstage0_0 ((cfg0.slots t 0).cast nbuf0_0)
abbrev outRef (t : Fin cfg0.N) : Memref sig .tc .vmem S1x1 .f32 := win0_1.stage (cfg0.slots t 1)
abbrev outRef_whole (t : Fin cfg0.N) : (outRef t).IsWhole := hstage0_1 ((cfg0.slots t 1).cast nbuf0_1)
/-- The running sum's scratch cell. -/
abbrev accRef : Memref sig .tc .vmem S1x1 .f32 := Memref.whole cc0_scratch0
abbrev accView : View sig .tc .vmem S1x1 .f32 := accRef.view
abbrev outView : View sig .tc .vmem S1x1 .f32 := (Memref.whole cc0_stg1_0 : Memref sig .tc .vmem S1x1 .f32).view

/-- What the launch lends the region besides the windows: the scratch cell at some contents and the generator register. -/
theorem lent_eq (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

end Cert.KernelIdeal.Around

end
-- ==== Proof.IdealRuns.lean ====
/-
  The kernel body run whole, once for each kind of grid point, on any whole staging memrefs and for any float instance: the
  first point (reset the cell, add the slab's total), a middle point (add the slab's total), the last point (add, then copy
  the cell out).  Each run is handed the slab's buffer at known contents and returns it as it was; what the stores leave in the
  cell (and, at the last point, in the result's buffer) is recorded as the list of written pieces the run ends with.
-/
import proofs.«144539_j80857054314543_1_alg».proof.Proof.IdealKit

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the FIRST point (it resets the cell, adds the slab's total, copies nothing out), on any whole memrefs: the slab's
    buffer at `x`, the result's buffer at `xo` (handed back untouched), the cell at anything.  It runs to the continuation with
    the cell written by the pieces `LS` the run leaves (the reset, then the update). -/
noncomputable def firstPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : isFirst i) (hl : ¬isLast i) (x : Vec F S1x3125x128 .f32) :
    { LS : List (View.Piece (Elt F) S1x1 .f32) //
      ∀ (xo : Vec F S1x1 .f32) (E : Set ℕ) (K : PUnit → sProp 𝕄),
        iprop(owns (c : Thread nD τ) arg1 fullShare x ∗ owns (c : Thread nD τ) arg2 fullShare xo ∗ (∃ d, owns (c : Thread nD τ) arg3 fullShare d)
            ∗ (iprop(owns (c : Thread nD τ) arg1 fullShare x ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xo E K => ?run⟩
  case run =>
    simp only [cc0__sum_kernel_eq_skeleton]; unfold cc0__sum_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- The body at a point that is neither first nor last (it adds the slab's total to the cell), on any whole memrefs: the cell at
    `xs`, what the point before left. -/
noncomputable def midPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : ¬isFirst i) (hl : ¬isLast i) (x : Vec F S1x3125x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x ∗ owns (c : Thread nD τ) arg2 fullShare xo ∗ owns (c : Thread nD τ) arg3 fullShare xs
            ∗ (iprop(owns (c : Thread nD τ) arg1 fullShare x ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xo E K => ?run⟩
  case run =>
    simp only [cc0__sum_kernel_eq_skeleton]; unfold cc0__sum_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg3.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in
/-- The body at the LAST point (it adds the slab's total to the cell, then copies the cell into the result's buffer), on any
    whole memrefs: the cell at `xs`, the result's buffer at anything; it leaves the result's buffer written by the pieces `LO`
    and the cell by `LS`. -/
noncomputable def lastPoint (c : Dev nD) (i : grid0.Coords) (arg1 : Memref sig .tc .vmem S1x3125x128 .f32) (harg1 : arg1.IsWhole)
    (arg2 : Memref sig .tc .vmem S1x1 .f32) (harg2 : arg2.IsWhole) (arg3 : Memref sig .tc .vmem S1x1 .f32) (harg3 : arg3.IsWhole)
    (hf : ¬isFirst i) (hl : isLast i) (x : Vec F S1x3125x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare xs
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hf | exact hl)
    sl_step
    iapply Hk
    isplitl [H0]
    · iexists _; isplitr; · ipureintro; exact harg1.read_unread _
      iexact H0
    isplitl [H1]; · iexists _; iexact H1
    iexists _; iexact HS

end Cert.KernelIdeal.Around

end
-- ==== Proof.IdealFrame.lean ====
/-
  The frame of the summing program, for any float instance.  The region has ten points; the kernel keeps a running sum in a
  one-entry scratch cell: the first point resets it and adds slab 0's total, every later point adds its slab's total, and the
  last point copies the cell into the result's staging buffer, which only then is written back.  So the proof data say: the slab
  window's buffer holds slab `t` at point `t`; the cell after point `n` holds `cellAfter n` (a recursion on the point through
  the three kinds of point); the result's buffer matters at the last point only.  The region's invariant carries the cell at
  `cellAfter` from point to point; it starts from, and is forgotten back into, "the cell at anything".  The launch then runs
  @main: the re-laying line, the region, the scalar lines.
-/
import proofs.«144539_j80857054314543_1_alg».proof.Proof.IdealRuns

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

section Pieces
variable (c : Dev nD) (i : grid0.Coords) (arg1 : Memref sig .tc .vmem S1x3125x128 .f32) (harg1 : arg1.IsWhole)
  (arg2 : Memref sig .tc .vmem S1x1 .f32) (harg2 : arg2.IsWhole) (arg3 : Memref sig .tc .vmem S1x1 .f32) (harg3 : arg3.IsWhole)
  (x : Vec F S1x3125x128 .f32) (xs : Vec F S1x1 .f32)

/-- The pieces the first point writes into the cell cover it, -/
theorem firstCell_cover (hf : isFirst i) (hl : ¬isLast i) (y : S1x1.Idx) :
    ∃ pc ∈ (firstPoint c i arg1 harg1 arg2 harg2 arg3 harg3 hf hl x).1, y ∈ pc.1.set :=
  View.cover_of_tiledL (firstPoint c i arg1 harg1 arg2 harg2 arg3 harg3 hf hl x).1 S1x1.size (by sl_kernel_rfl) y
/-- so the cell afterwards is those pieces read back. -/
def firstCell (hf : isFirst i) (hl : ¬isLast i) : Vec F S1x1 .f32 :=
  accView.read (Elt F) (accView.writes (Elt F) accView.junk (firstPoint c i arg1 harg1 arg2 harg2 arg3 harg3 hf hl x).1)

theorem midCell_cover (hf : ¬isFirst i) (hl : ¬isLast i) (y : S1x1.Idx) :
    ∃ pc ∈ (midPoint c i arg1 harg1 arg2 harg2 arg3 harg3 hf hl x xs).1, y ∈ pc.1.set :=
  View.cover_of_tiledL (midPoint c i arg1 harg1 arg2 harg2 arg3 harg3 hf hl x xs).1 S1x1.size (by sl_kernel_rfl) y
def midCell (hf : ¬isFirst i) (hl : ¬isLast i) : Vec F S1x1 .f32 :=
  accView.read (Elt F) (accView.writes (Elt F) accView.junk (midPoint c i arg1 harg1 arg2 harg2 arg3 harg3 hf hl x xs).1)

theorem lastCell_cover (hf : ¬isFirst i) (hl : isLast i) (y : S1x1.Idx) :
    ∃ pc ∈ (lastPoint c i arg1 harg1 arg2 harg2 arg3 harg3 hf hl x xs).2.1, y ∈ pc.1.set :=
  View.cover_of_tiledL (lastPoint c i arg1 harg1 arg2 harg2 arg3 harg3 hf hl x xs).2.1 S1x1.size (by sl_kernel_rfl) y
def lastCell (hf : ¬isFirst i) (hl : isLast i) : Vec F S1x1 .f32 :=
  accView.read (Elt F) (accView.writes (Elt F) accView.junk (lastPoint c i arg1 harg1 arg2 harg2 arg3 harg3 hf hl x xs).2.1)

/-- The last point's one store into the result's buffer covers it; what it leaves there: -/
theorem lastOut_cover (hf : ¬isFirst i) (hl : isLast i) (y : S1x1.Idx) :
    ∃ pc ∈ (lastPoint c i arg1 harg1 arg2 harg2 arg3 harg3 hf hl x xs).1, y ∈ pc.1.set :=
  View.cover_of_tiledL (lastPoint c i arg1 harg1 arg2 harg2 arg3 harg3 hf hl x xs).1 S1x1.size (by sl_kernel_rfl) y
def lastOut (hf : ¬isFirst i) (hl : isLast i) : Vec F S1x1 .f32 :=
  outView.read (Elt F) (outView.writes (Elt F) outView.junk (lastPoint c i arg1 harg1 arg2 harg2 arg3 harg3 hf hl x xs).1)

end Pieces

/-! ## The running sum, point by point -/

theorem not_last_of_ne (t : Fin cfg0.N) (h : t.val ≠ 9) : ¬isLast (grid0.coords t) := fun hl => h ((isLast_iff t).mp hl)
theorem not_first_of_ne (t : Fin cfg0.N) (h : t.val ≠ 0) : ¬isFirst (grid0.coords t) := fun hf => h ((isFirst_iff t).mp hf)

/-- The cell after point `n`: after the first point, what the reset and slab 0 leave; after a later point, what adding that
    point's slab to the cell of the point before leaves (the last point adds like the others before it copies out). -/
def cellAfter (c : Dev nD) : (n : ℕ) → n < cfg0.N → Vec F S1x1 .f32
  | 0, hn => firstCell c (grid0.coords ⟨0, hn⟩) (slabRef ⟨0, hn⟩) (slabRef_whole ⟨0, hn⟩) (outRef ⟨0, hn⟩) (outRef_whole ⟨0, hn⟩) accRef (Memref.isWhole_whole _)
      (blockAt m c 0 ⟨0, hn⟩) ((isFirst_iff ⟨0, hn⟩).mpr rfl) (not_last_of_ne ⟨0, hn⟩ (by show (0 : ℕ) ≠ 9; omega))
  | n + 1, hn =>
    if h9 : n + 1 = 9 then
      lastCell c (grid0.coords ⟨n + 1, hn⟩) (slabRef ⟨n + 1, hn⟩) (slabRef_whole ⟨n + 1, hn⟩) (outRef ⟨n + 1, hn⟩) (outRef_whole ⟨n + 1, hn⟩) accRef (Memref.isWhole_whole _)
        (blockAt m c 0 ⟨n + 1, hn⟩) (cellAfter c n (Nat.lt_of_succ_lt hn)) (not_first_of_ne ⟨n + 1, hn⟩ (Nat.succ_ne_zero n)) ((isLast_iff ⟨n + 1, hn⟩).mpr h9)
    else
      midCell c (grid0.coords ⟨n + 1, hn⟩) (slabRef ⟨n + 1, hn⟩) (slabRef_whole ⟨n + 1, hn⟩) (outRef ⟨n + 1, hn⟩) (outRef_whole ⟨n + 1, hn⟩) accRef (Memref.isWhole_whole _)
        (blockAt m c 0 ⟨n + 1, hn⟩) (cellAfter c n (Nat.lt_of_succ_lt hn)) (not_first_of_ne ⟨n + 1, hn⟩ (Nat.succ_ne_zero n)) (not_last_of_ne ⟨n + 1, hn⟩ h9)

/-- What the result's staging buffer holds after the last point: the cell as that point updated it, copied. (At the other
    points the window is idle; the value named there is never consulted.) -/
def resultAfter (c : Dev nD) (t : Fin cfg0.N) : Vec F S1x1 .f32 :=
  if h : t.val = 9 ∧ t.val ≠ 0 then
    lastOut c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h.2) ((isLast_iff t).mpr h.1)
  else outView.read (Elt F) outView.junk

theorem cellAfter_zero (c : Dev nD) (t : Fin cfg0.N) (h0 : t.val = 0) :
    cellAfter m c t.val t.isLt = firstCell c (grid0.coords t) (slabRef t) (slabRef_whole t) (outRef t) (outRef_whole t) accRef (Memref.isWhole_whole _)
      (blockAt m c 0 t) ((isFirst_iff t).mpr h0) (not_last_of_ne t (by omega)) := by
  obtain ⟨n, hn⟩ := t
  cases n with
  | zero => rfl
  | succ n => exact absurd h0 (Nat.succ_ne_zero n)

theorem cellAfter_mid (c : Dev nD) (t : Fin cfg0.N) (h0 : t.val ≠ 0) (h9 : t.val ≠ 9) :
    cellAfter m c t.val t.isLt = midCell c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) (not_last_of_ne t h9) := by
  obtain ⟨n, hn⟩ := t
  cases n with
  | zero => exact absurd rfl h0
  | succ n => exact (dif_neg h9).trans rfl

theorem cellAfter_last (c : Dev nD) (t : Fin cfg0.N) (h0 : t.val ≠ 0) (h9 : t.val = 9) :
    cellAfter m c t.val t.isLt = lastCell c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) ((isLast_iff t).mpr h9) := by
  obtain ⟨n, hn⟩ := t
  cases n with
  | zero => exact absurd rfl h0
  | succ n => exact (dif_pos h9).trans rfl

theorem resultAfter_last (c : Dev nD) (t : Fin cfg0.N) (h0 : t.val ≠ 0) (h9 : t.val = 9) :
    resultAfter m c t = lastOut c (grid0.coords t) (slabRef t) (slabRef_whole t) (outRef t) (outRef_whole t) accRef (Memref.isWhole_whole _)
      (blockAt m c 0 t) (cellAfter m c (t.val - 1) (Nat.lt_of_le_of_lt (Nat.sub_le _ _) t.isLt)) (not_first_of_ne t h0) ((isLast_iff t).mpr h9) :=
  dif_pos ⟨h9, h0⟩

/-! ## The invariant -/

/-- Before point `n`: at the start, what the launch lends (the cell at anything); afterwards the cell at what the point before
    left, and the generator register at some state. -/
def cellInv (c : Dev nD) : (n : ℕ) → n ≤ cfg0.N → sProp 𝕄
  | 0, _ => Pipeline.ΦA spec0 c
  | n + 1, hn => iprop(iprop(owns (c : Thread nD τ) accRef fullShare (cellAfter m c n hn)) ∗ (∃ r, prngReg c r))

theorem cellInv_zero (c : Dev nD) (n : ℕ) (h : n ≤ cfg0.N) (hz : n = 0) : cellInv m c n h = Pipeline.ΦA spec0 c := by
  subst hz; rfl
theorem cellInv_succ (c : Dev nD) (n : ℕ) (hn : n < cfg0.N) :
    cellInv m c (n + 1) hn = iprop(iprop(owns (c : Thread nD τ) accRef fullShare (cellAfter m c n hn)) ∗ (∃ r, prngReg c r)) := rfl
theorem cellInv_pos (c : Dev nD) (n : ℕ) (h : n ≤ cfg0.N) (hz : n ≠ 0) :
    cellInv m c n h = iprop(iprop(owns (c : Thread nD τ) accRef fullShare (cellAfter m c (n - 1) (by omega))) ∗ (∃ r, prngReg c r)) := by
  cases n with
  | zero => exact absurd rfl hz
  | succ n => rfl

/-! ## The proof data -/

/-- The region's proof data on core `c`: the arrays as the region finds them; after the body the slab window's buffer at its
    slab and the result's at `resultAfter`; the invariant above; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => resultAfter m c t
  Φ t := cellInv m c t.val (Nat.le_of_lt_succ t.isLt)
  q _ := fullShare
  owed _ := 0

theorem dats_A (c : Dev nD) (w : Fin cfg0.W) : (dats m 0 c).A w = entryAt m c (Pipeline.arrRef spec0 w) := by
  dsimp only [dats]
theorem dats_inv_castSucc (c : Dev nD) (t : Fin cfg0.N) :
    (dats m 0 c).Φ t.castSucc = cellInv m c t.val (Nat.le_of_lt t.isLt) := by
  dsimp only [dats]; simp only [Fin.coe_castSucc]
theorem dats_after_slab (c : Dev nD) (t : Fin cfg0.N) : (dats m 0 c).after 0 t = blockAt m c 0 t := by dsimp only [dats]
theorem dats_after_result (c : Dev nD) (t : Fin cfg0.N) : (dats m 0 c).after 1 t = resultAfter m c t := by dsimp only [dats]
theorem dats_before_slab (c : Dev nD) (t : Fin cfg0.N) (d) : (dats m 0 c).before 0 t d = blockAt m c 0 t :=
  slab_found m (dats m 0 c) (dats_A m c 0) (dats_after_slab m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (slabRef t) fullShare ((dats m 0 c).before 0 t d))
    ∗ (∃ d, owns (c : Thread nD τ) (outRef t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point.  The slab's buffer holds slab `t`; by the point's number it is a first, a middle or the last point;
    the invariant lends the cell (at anything at the first point, else at what the point before left) and takes it back at this
    point's `cellAfter`; the result's buffer goes back untouched except at the last point, where it holds the copied cell. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_slab]
  rw [show (dats m 0 c).owesAt () t.succ = (dats m 0 c).owesAt () t.castSucc from rfl]
  rw [show (dats m 0 c).Φ t.succ = cellInv m c (t.val + 1) t.isLt from rfl, cellInv_succ]
  rw [show (dats m 0 c).leavesExact 0 t = owns (c : Thread nD τ) (slabRef t) fullShare ((dats m 0 c).after 0 t) from by
    unfold Dat.leavesExact; rw [slab_live t], dats_after_slab]
  have hN : t.val < 10 := lt_of_lt_of_eq t.isLt (show cfg0.N = 10 from N_0)
  by_cases h0 : t.val = 0
  · -- the first point
    have hl : ¬isLast (grid0.coords t) := not_last_of_ne t (by omega)
    rw [Dat.leavesExact_idle (dats m 0 c) 1 t (result_idle t hl) (result_kept t hl)]
    rw [cellAfter_zero m c t h0]
    unfold firstCell; (try dsimp only)
    rw [dats_inv_castSucc m c t, cellInv_zero m c _ _ h0, lent_eq]
    iintro ⟨⟨HS, Hg⟩, Ho, ⟨%d0, H0⟩, ⟨%d1, H1⟩⟩
    iapply ((firstPoint c (grid0.coords t) _ _ _ _ _ _ ((isFirst_iff t).mpr h0) hl (blockAt m c 0 t)).2 _ Set.univ _)
    isplitl [H0]; · iexact H0
    isplitl [H1]; · iexact H1
    isplitl [HS]; · iexact HS
    iintro ⟨H0, H1, ⟨%es, HS⟩⟩
    isplitl [HS Hg]
    · isplitl [HS]
      · unfold owns; iexists _; isplitr
        swap; · iexact HS
        ipureintro; exact View.read_writes_of_cover _ _ _ _ _ (firstCell_cover c _ _ _ _ _ _ _ _ _ _)
      iexact Hg
    isplitl [Ho]; · iexact Ho
    isplitl [H0]; · iexact H0
    iexists _; iexact H1
  · have hf : ¬isFirst (grid0.coords t) := not_first_of_ne t h0
    by_cases h9 : t.val = 9
    · -- the last point
      have hl : isLast (grid0.coords t) := (isLast_iff t).mpr h9
      rw [show (dats m 0 c).leavesExact 1 t = owns (c : Thread nD τ) (outRef t) fullShare ((dats m 0 c).after 1 t) from by
        unfold Dat.leavesExact; rw [result_live t hl], dats_after_result]
      rw [cellAfter_last m c t h0 h9, resultAfter_last m c t h0 h9]
      unfold lastCell lastOut; (try dsimp only)
      rw [dats_inv_castSucc m c t, cellInv_pos m c _ _ h0]
      iintro ⟨⟨HS, Hg⟩, Ho, ⟨%d0, H0⟩, ⟨%d1, H1⟩⟩
      iapply ((lastPoint c (grid0.coords t) _ _ _ _ _ _ hf hl (blockAt m c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hg]
      · isplitl [HS]
        · unfold owns; iexists _; isplitr
          swap; · iexact HS
          ipureintro; exact View.read_writes_of_cover _ _ _ _ _ (lastCell_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (lastOut_cover c _ _ _ _ _ _ _ _ _ _ _)
    · -- a middle point
      have hl : ¬isLast (grid0.coords t) := not_last_of_ne t h9
      rw [Dat.leavesExact_idle (dats m 0 c) 1 t (result_idle t hl) (result_kept t hl)]
      rw [cellAfter_mid m c t h0 h9]
      unfold midCell; (try dsimp only)
      rw [dats_inv_castSucc m c t, cellInv_pos m c _ _ h0]
      iintro ⟨⟨HS, Hg⟩, Ho, ⟨%d0, H0⟩, ⟨%d1, H1⟩⟩
      iapply ((midPoint c (grid0.coords t) _ _ _ _ _ _ hf hl (blockAt m c 0 t) _).2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (midCell_cover c _ _ _ _ _ _ _ _ _ _ _)
        iexact Hg
      isplitl [Ho]; · iexact Ho
      isplitl [H0]; · iexact H0
      iexists _; iexact H1

/-- The obligation the launch asks, at every point. -/
theorem body_obligation (c : Dev nD) : BodyObligation (dats (F := F) m 0 c) (defs₀ (F := F)) Variants.none () Set.univ := fun t => by
  rw [bigSep_W0, bigSep_W0]
  exact body_sound m c t

/-- What the launch lends is the invariant before the first point, -/
theorem inv_start (c : Dev nD) : Pipeline.ΦA spec0 c ⊢ (dats m 0 c).Φ 0 := by
  rw [show (dats m 0 c).Φ 0 = cellInv m c 0 (Nat.zero_le _) from rfl, cellInv_zero m c 0 _ rfl]
  try exact Idealize.SL.BI.Entails.refl _

/-- and after the last point the invariant gives it back, the cell's contents forgotten. -/
theorem inv_end (c : Dev nD) : (dats m 0 c).Φ (Fin.last cfg0.N) ⊢ Pipeline.ΦA spec0 c := by
  have hN : (Fin.last cfg0.N).val ≠ 0 := by rw [Fin.val_last]; have : cfg0.N = 10 := N_0; omega
  rw [show (dats m 0 c).Φ (Fin.last cfg0.N) = cellInv m c (Fin.last cfg0.N).val (Nat.le_of_lt_succ (Fin.last cfg0.N).isLt) from rfl,
    cellInv_pos m c _ _ hN, lent_eq]
  iintro ⟨HS, Hg⟩
  isplitl [HS]
  · iexists _; iexact HS
  iexact Hg

/-! ## The run -/

set_option backward.isDefEq.respectTransparency.types false in
/-- Every weakly fair execution of @main ends, faulting nowhere, with the two arrays of the region at what the proof data
    compute and every other unscoped buffer at what the scalar lines leave from the region's exit. -/
theorem run_main : θ_run defs (onTc (τ := τ) (main (F := F))) (s₀ m ρ)
    (Pipeline.FramePost cfgs (dats m) 0 (Pipeline.afterTail₀ cfgs (dats m) 0 (entry m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := later) (hsub := later_within) (hfresh := later_allocates_nothing) (hkeep := later_keeps_arrays)
    (hmain := reduces_to_region m Variants.none) (hA := dats_A m) (hin := inv_start m) (hout := inv_end m)

/-- What a bypassing buffer that no line writes holds at the end: its launch contents. -/
theorem end_keeps (c : Dev nD) {b : Ref sig .tc} (hb : b ∈ untouched) (hv : b ≠ main_v0) (hv1 : b ≠ main_v1) :
    Pipeline.afterTail₀ cfgs (dats m) 0 (entry m) later c b = m ((c : Thread nD τ).loc b) := by
  unfold Pipeline.afterTail₀
  rw [later_keeps _ hb, Pipeline.withArrays_of_ne]
  · exact entry_keeps m c hv
  · intro w; fin_cases w
    · exact fun e => hv e.symm
    · exact fun e => hv1 e.symm

/-- An unscoped buffer that is neither array of the region bypasses it. -/
theorem bypasses (b : Ref sig .tc) (hs : b.isScoped = false) (h0 : b ≠ main_v0) (h1 : b ≠ main_v1) :
    b ∈ Pipeline.restRefs sig spec0 :=
  Pipeline.mem_restRefs_of b hs fun w => by
    fin_cases w
    · exact fun e => h0 e.symm
    · exact fun e => h1 e.symm

/-- At the end of the run the fourteen arguments are as they were. None is an array of the region and no line writes one, so each
    holds what the scalar lines leave of its launch contents: those contents. -/
theorem args_kept {r : PUnit × MemSt nD τ sig (Elt F)}
    (h : Pipeline.FramePost cfgs (dats m) 0 (Pipeline.afterTail₀ cfgs (dats m) 0 (entry m) later) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have at_end : ∀ b : Ref sig .tc, b ∈ untouched → b.isScoped = false → b ≠ main_v0 → b ≠ main_v1 →
      r.2.mem ((c.tc : Thread nD τ).loc b) = m ((c.tc : Thread nD τ).loc b) :=
    fun b hb hs h0 h1 => ((h c).2 b (bypasses b hs h0 h1)).trans (end_keeps m c hb h0 h1)
  exact ⟨at_end main_arg0 (by decide) rfl (by decide) (by decide), at_end main_arg1 (by decide) rfl (by decide) (by decide),
    at_end main_arg2 (by decide) rfl (by decide) (by decide), at_end main_arg3 (by decide) rfl (by decide) (by decide),
    at_end main_arg4 (by decide) rfl (by decide) (by decide), at_end main_arg5 (by decide) rfl (by decide) (by decide),
    at_end main_arg6 (by decide) rfl (by decide) (by decide), at_end main_arg7 (by decide) rfl (by decide) (by decide),
    at_end main_arg8 (by decide) rfl (by decide) (by decide), at_end main_arg9 (by decide) rfl (by decide) (by decide),
    at_end main_arg10 (by decide) rfl (by decide) (by decide), at_end main_arg11 (by decide) rfl (by decide) (by decide),
    at_end main_arg12 (by decide) rfl (by decide) (by decide), at_end main_arg13 (by decide) rfl (by decide) (by decide)⟩

/-- The frame claim's post: every weakly fair run ends, faulting nowhere, with the fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m h c) (run_main m ρ)

end Cert.KernelIdeal.Around

end
-- ==== Proof.IdealSum.lean ====
/-
  What the region leaves, for any float instance.  Each kind of point's stores, read back, are one step of the running sum
  (`k0_pay2 slab cell`, from the reset value `k0_pay1` at the first point); so the cell after point `n` is the running sum over
  slabs 0 … n, by induction on the point; the last point copies it into the result's buffer, the only write-back of the region,
  whose block is the whole one-entry array: the result array ends at the running sum over all ten slabs.
-/
import proofs.«144539_j80857054314543_1_alg».proof.Proof.IdealFrame
import Idealize.ShloMosaic.Lib.Pipeline.Value

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section PieceValues
variable (c : Dev nD) (i : grid0.Coords) (a1 : Memref sig .tc .vmem S1x3125x128 .f32) (h1 : a1.IsWhole)
  (a2 : Memref sig .tc .vmem S1x1 .f32) (h2 : a2.IsWhole) (a3 : Memref sig .tc .vmem S1x1 .f32) (h3 : a3.IsWhole)
  (x : Vec F S1x3125x128 .f32) (xs : Vec F S1x1 .f32)

/-- A middle point leaves in the cell one step from what it held: its one store covers the cell, and its payload's loads read
    the slab's buffer and the cell whole. -/
theorem midCell_eq (hf : ¬isFirst i) (hl : ¬isLast i) :
    midCell c i a1 h1 a2 h2 a3 h3 x xs hf hl = k0_pay2 x xs := by
  unfold midCell
  rw [View.read_writes_eq_canon _ _ _ (midCell_cover c i a1 h1 a2 h2 a3 h3 x xs hf hl)]
  unfold midPoint
  dsimp only
  sl_unfold_words
  rw [View.canon_unit_zero hz2]
  simp only [View.readAt_eq_ld, h1.read_unread, h3.read_unread, View.ld_unit_zero (S := S1x3125x128) hz3, View.ld_unit_zero (S := S1x1) hz2]

/-- The first point leaves one step from the reset value: the update's store covers the reset's, and the cell it loads in
    between is the reset value read back. -/
theorem firstCell_eq (hf : isFirst i) (hl : ¬isLast i) :
    firstCell c i a1 h1 a2 h2 a3 h3 x hf hl = k0_pay2 x k0_pay1 := by
  unfold firstCell
  rw [View.read_writes_eq_canon _ _ _ (firstCell_cover c i a1 h1 a2 h2 a3 h3 x hf hl)]
  unfold firstPoint
  dsimp only
  sl_unfold_words
  rw [View.canon_cons_unit_zero (S := S1x1) hz2, View.readCov_unit_zero (S := S1x1) _ hz2]
  simp only [View.readAt_eq_ld, h1.read_unread, View.ld_unit_zero (S := S1x3125x128) hz3]

/-- The last point updates the cell like a middle point, -/
theorem lastCell_eq (hf : ¬isFirst i) (hl : isLast i) :
    lastCell c i a1 h1 a2 h2 a3 h3 x xs hf hl = k0_pay2 x xs := by
  unfold lastCell
  rw [View.read_writes_eq_canon _ _ _ (lastCell_cover c i a1 h1 a2 h2 a3 h3 x xs hf hl)]
  unfold lastPoint
  dsimp only
  sl_unfold_words
  rw [View.canon_unit_zero hz2]
  simp only [View.readAt_eq_ld, h1.read_unread, h3.read_unread, View.ld_unit_zero (S := S1x3125x128) hz3, View.ld_unit_zero (S := S1x1) hz2]

/-- and what it copies into the result's buffer is the updated cell read back. -/
theorem lastOut_eq (hf : ¬isFirst i) (hl : isLast i) :
    lastOut c i a1 h1 a2 h2 a3 h3 x xs hf hl = k0_pay2 x xs := by
  unfold lastOut
  rw [View.read_writes_eq_canon _ _ _ (lastOut_cover c i a1 h1 a2 h2 a3 h3 x xs hf hl)]
  unfold lastPoint
  dsimp only
  sl_unfold_words
  rw [View.canon_unit_zero hz2, View.readCov_unit_zero (S := S1x1) _ hz2]
  simp only [View.readAt_eq_ld, h1.read_unread, h3.read_unread, View.ld_unit_zero (S := S1x3125x128) hz3, View.ld_unit_zero (S := S1x1) hz2]

end PieceValues

/-! ## The running sum -/

/-- The running sum after point `n`: one step from the reset value with slab 0, then one step with each later slab. -/
def runningSum (c : Dev nD) : (n : ℕ) → n < cfg0.N → Vec F S1x1 .f32
  | 0, h => k0_pay2 (blockAt m c 0 ⟨0, h⟩) k0_pay1
  | n + 1, h => k0_pay2 (blockAt m c 0 ⟨n + 1, h⟩) (runningSum c n (Nat.lt_of_succ_lt h))

/-- The cell after point `n` is the running sum: by induction on the point, the last point stepping like the middle ones. -/
theorem cellAfter_eq (c : Dev nD) : ∀ (n : ℕ) (h : n < cfg0.N), cellAfter m c n h = runningSum m c n h
  | 0, h => (cellAfter_zero m c ⟨0, h⟩ rfl).trans (firstCell_eq ..)
  | n + 1, h => by
    by_cases h9 : n + 1 = 9
    · rw [cellAfter_last m c ⟨n + 1, h⟩ (Nat.succ_ne_zero n) h9, lastCell_eq]
      show k0_pay2 _ (cellAfter m c n _) = k0_pay2 _ (runningSum m c n _)
      rw [cellAfter_eq c n]
    · rw [cellAfter_mid m c ⟨n + 1, h⟩ (Nat.succ_ne_zero n) h9, midCell_eq]
      show k0_pay2 _ (cellAfter m c n _) = k0_pay2 _ (runningSum m c n _)
      rw [cellAfter_eq c n]

/-- At the last point the result's buffer is left at that point's running sum. -/
theorem resultAfter_eq (c : Dev nD) (t : Fin cfg0.N) (h9 : t.val = 9) : resultAfter m c t = runningSum m c t.val t.isLt := by
  have h0 : t.val ≠ 0 := by omega
  rw [resultAfter_last m c t h0 h9, lastOut_eq, cellAfter_eq]
  obtain ⟨n, hn⟩ := t
  cases n with
  | zero => exact absurd rfl h0
  | succ n => rfl

/-! ## The result array after the region -/

/-- The running sum over all ten slabs, as contents of the kernel's one-entry result array. -/
abbrev sumAll (c : Dev nD) : Buf (Elt F) ((c : Thread nD τ).loc main_v1) :=
  runningSum m c 9 (by rw [show cfg0.N = 10 from N_0]; decide)

/-- The one write-back, at the last point, writes it: the block at zero offsets of the one-entry array is the array. -/
theorem flushed_eq (c : Dev nD) (t : Fin cfg0.N) (hf : (cfg0.win 1).flush t = true) :
    (dats m 0 c).flushed 1 t = ((cfg0.win 1).blk t).view.read (Elt F) (sumAll m c) := by
  have hN : cfg0.N = 10 := N_0
  have h9 : t.val = 9 := by have := (flush0_1 t).mp hf; have := t.isLt; omega
  obtain rfl : t = t0_9 := Fin.ext h9
  show (cfg0.win 1).cut (grid0.coords t0_9) ((dats m 0 c).after 1 t0_9) = _
  rw [dats_after_result, resultAfter_eq m c t0_9 rfl]
  have hz' : (fun a => win0_1.index t0_9 a * main_v1.ty.shape.size a) = fun _ => 0 := funext fun a => by fin_cases a <;> decide
  exact (Memref.read_access_unit_zero (Elt F) main_v1 hz' (fun a => by rw [congrFun hz' a]; simp) (sumAll m c)).symm

/-- So the result array ends at the running sum over all ten slabs. -/
theorem result_array (c : Dev nD) : (dats m 0 c).arrAt 1 cfg0.N = sumAll m c :=
  (dats m 0 c).arrAt_eq_of_cover 1 (sumAll m c) (flushed_eq m c) fun i =>
    ⟨t0_9, (flush0_1 t0_9).mpr rfl, by
      show i ∈ ((View.whole main_v1).slice (win0_1.rect t0_9)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_9 0 * win0_1.size 0 ≤ (i 0 : Nat) ∧ (i 0 : Nat) < win0_1.index t0_9 0 * win0_1.size 0 + win0_1.xsize (grid0.coords t0_9) 0
                  rw [show win0_1.index t0_9 0 * win0_1.size 0 = 0 from by decide +kernel, show win0_1.xsize (grid0.coords t0_9) 0 = 1 from by decide +kernel]; omega
      | ⟨1, _⟩ => show win0_1.index t0_9 1 * win0_1.size 1 ≤ (i 1 : Nat) ∧ (i 1 : Nat) < win0_1.index t0_9 1 * win0_1.size 1 + win0_1.xsize (grid0.coords t0_9) 1
                  rw [show win0_1.index t0_9 1 * win0_1.size 1 = 0 from by decide +kernel, show win0_1.xsize (grid0.coords t0_9) 1 = 1 from by decide +kernel]; omega⟩

end Cert.KernelIdeal.Around

end
-- ==== Proof.SlabSum.lean ====
/-
  The running sum, read as numbers.  One step of the kernel adds a slab's 3125 × 128 entries to the cell (row sums first, then
  the sum of the row sums); the reset value is zero; and ten stretches of 3125 × 128 consecutive areas are all four million.
-/
import proofs.«144539_j80857054314543_1_alg».proof.Proof.Gen.KernelIdeal.Skeleton
import Idealize.ShloMosaic.Lib.ValueIdx
import Idealize.ShloMosaic.Lib.Pipeline.Value
import Idealize.ShloMosaic.PureOps.Ideal.Laws
import Mathlib.Logic.Equiv.Fin.Basic
import Mathlib.Algebra.BigOperators.Group.Finset.Defs
import Mathlib.Data.Fintype.BigOperators
import Mathlib.Tactic.NormNum.Basic

noncomputable section

namespace Cert.KernelIdeal.SlabSum

open Idealize.ShloMosaic Idealize.ShloMosaic.ValueIdx
open Cert.KernelIdeal Cert.KernelIdeal.Gen
open scoped BigOperators

/-- The value the first point resets the cell to is zero. -/
theorem reset_apply (j : S1x1.Idx) : k0_pay1 (F := Ideal) j = 0 := by
  unfold k0_pay1
  rw [shapeCast_self]
  exact Ideal.ofBits_zero_f32

/-! ## One step -/

/-- A row's sum: the reduction over the lane axis of a 3125 × 128 array, at row `r`, is the sum of that row. -/
private theorem rowSum_apply (y : FVec Ideal S3125x128 .f32) (r : Fin 3125) :
    multiReduction .add [1] S3125 y 0x00000000#32 reduces_S3125x128_S3125 (.inl rfl) rfl (ix1 r)
      = ∑ l : Fin 128, y (ix2 r l) := by
  refine (Ideal.multiReduction_add_single y _ reduces_S3125x128_S3125 _ _ _).trans ?_
  show ∑ l : Fin 128, y (reduces_S3125x128_S3125.lift (ix1 r) l) = _
  refine Finset.sum_congr rfl fun l _ => congrArg y ?_
  funext c
  match c with
  | ⟨0, _⟩ => rfl
  | ⟨1, _⟩ => rfl

/-- The sum of the row sums: the reduction over the row axis of a 3125 × 1 column is the sum of its entries. -/
private theorem colSum_apply (y : FVec Ideal S3125x1 .f32) :
    multiReduction .add [0] S1 y 0x00000000#32 reduces_S3125x1_S1 (.inl rfl) rfl (ix1 (0 : Fin 1))
      = ∑ r : Fin 3125, y (ix2 r (0 : Fin 1)) := by
  refine (Ideal.multiReduction_add_single y _ reduces_S3125x1_S1 _ _ _).trans ?_
  show ∑ r : Fin 3125, y (reduces_S3125x1_S1.lift (ix1 (0 : Fin 1)) r) = _
  refine Finset.sum_congr rfl fun r _ => congrArg y ?_
  funext c
  match c with
  | ⟨0, _⟩ => rfl
  | ⟨1, _⟩ => rfl

/-- One step: the cell plus the sum of the slab's entries, rows first. -/
theorem step_apply (x : Vec Ideal S1x3125x128 .f32) (v : Vec Ideal S1x1 .f32) (j : S1x1.Idx) :
    k0_pay2 (F := Ideal) x v j = v j + ∑ r : Fin 3125, ∑ l : Fin 128, x (ix3 (0 : Fin 1) r l) := by
  obtain rfl : j = ix2 (0 : Fin 1) (0 : Fin 1) := by
    rw [eq_ix2 j]
    exact congrArg₂ ix2 (Fin.ext (by show (j 0).val = 0; have := idx2_lt0 j; omega))
      (Fin.ext (by show (j 1).val = 0; have := idx2_lt1 j; omega))
  unfold k0_pay2
  rw [shapeCast_self]
  refine congrArg (v (ix2 (0 : Fin 1) (0 : Fin 1)) + ·) ?_
  -- the [1] result viewed [1,1] reads its one entry
  refine (shapeCast_apply _ shapeCasts_S1_S1x1 _ (ix1 (0 : Fin 1)) (by
    rw [Shape.rowMajor_val_one, Shape.rowMajor_val_two]; rfl)).trans ?_
  refine (colSum_apply _).trans ?_
  refine Finset.sum_congr rfl fun r _ => ?_
  -- the row sums viewed as a column read the row sum
  refine (shapeCast_apply _ shapeCasts_S3125_S3125x1 _ (ix1 r) (by
    rw [Shape.rowMajor_val_one, Shape.rowMajor_val_two]
    show r.val = r.val * 1 + 0
    omega)).trans ?_
  refine (rowSum_apply _ r).trans ?_
  refine Finset.sum_congr rfl fun l _ => ?_
  -- the slab without its leading unit axis
  exact shapeCast_apply _ shapeCasts_S1x3125x128_S3125x128 _ (ix3 (0 : Fin 1) r l) (by
    rw [Shape.rowMajor_val_three, Shape.rowMajor_val_two]
    show (0 * 3125 + r.val) * 128 + l.val = r.val * 128 + l.val
    omega)

/-! ## Re-indexing a sum over consecutive positions -/

/-- A position inside the `a`-th stretch of length `n` is below `m * n`. -/
private theorem stretch_lt {N m n a b : ℕ} (hN : N = m * n) (ha : a < m) (hb : b < n) : n * a + b < N := by
  subst hN
  calc n * a + b < n * a + n := Nat.add_lt_add_left hb _
    _ = n * (a + 1) := (Nat.mul_succ n a).symm
    _ ≤ n * m := Nat.mul_le_mul_left n ha
    _ = m * n := Nat.mul_comm n m

/-- A sum over `m * n` consecutive positions is the sum over `m` stretches of the sums over each stretch's `n` positions. -/
private theorem sum_stretches {M : Type*} [AddCommMonoid M] {N : ℕ} (m n : ℕ) (hN : N = m * n) (f : Fin N → M) :
    ∑ i : Fin N, f i = ∑ a : Fin m, ∑ b : Fin n, f ⟨n * a.val + b.val, stretch_lt hN a.isLt b.isLt⟩ := by
  subst hN
  rw [← Equiv.sum_comp finProdFinEquiv f, Fintype.sum_prod_type]
  refine Finset.sum_congr rfl fun a _ => Finset.sum_congr rfl fun b _ => congrArg f (Fin.ext ?_)
  show b.val + n * a.val = n * a.val + b.val
  exact Nat.add_comm _ _

/-- A rank-1 index set is its coordinate range … -/
private def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Four million consecutive positions as ten stretches of 3125 rows of 128. -/
private theorem sum_slabs {M : Type*} [AddCommMonoid M] (f : Fin 4000000 → M) :
    ∑ t : Fin 10, ∑ r : Fin 3125, ∑ l : Fin 128, f ⟨400000 * t.val + 128 * r.val + l.val, by omega⟩
      = ∑ i : Fin 4000000, f i := by
  rw [sum_stretches 10 400000 (by norm_num) f]
  refine Finset.sum_congr rfl fun t _ => ?_
  rw [sum_stretches 3125 128 (by norm_num) (fun b : Fin 400000 => f ⟨400000 * t.val + b.val, by omega⟩)]
  refine Finset.sum_congr rfl fun r _ => Finset.sum_congr rfl fun l _ => congrArg f (Fin.ext ?_)
  show 400000 * t.val + 128 * r.val + l.val = 400000 * t.val + (128 * r.val + l.val)
  exact Nat.add_assoc _ _ _

/-- Ten stretches of 3125 × 128 consecutive areas are all of them. -/
theorem slabs_total (A : FVec Ideal S4000000 .f32) :
    ∑ t : Fin 10, ∑ r : Fin 3125, ∑ l : Fin 128, A (ix1 (⟨400000 * t.val + 128 * r.val + l.val, by omega⟩ : Fin 4000000))
      = ∑ j : S4000000.Idx, A j := by
  rw [sum_idx1 (n := 4000000) A]
  exact sum_slabs (fun i : Fin 4000000 => A (ix1 i))

end Cert.KernelIdeal.SlabSum

end
-- ==== Proof.SlabRead.lean ====
/-
  Slab `t` of the re-laid areas, read at an index: the line before the region re-lays the four million areas row-major as ten
  slabs of 3125 × 128, and the region's slab window at point `t` is slab `t` whole, so its entry at row `r`, lane `l` is area
  number `400000 t + 128 r + l`.
-/
import proofs.«144539_j80857054314543_1_alg».proof.Proof.IdealKit
import Idealize.ShloMosaic.Lib.ValueIdx
import Idealize.ShloMosaic.Lib.Pipeline.Value
import Idealize.ShloMosaic.Lib.StableHlo.Run

noncomputable section

namespace Cert.KernelIdeal.SlabRead

open Idealize.ShloMosaic Idealize.ShloMosaic.TcCoe Idealize.SL.Sem Idealize.ShloMosaic.ValueIdx
open Cert.KernelIdeal Cert.KernelIdeal.Gen Cert.KernelIdeal.Around

variable {F : FTy → Type} [FloatOps F]

/-- What the slab array holds when the region is entered: the areas re-laid. -/
theorem entry_slabs (m : (ℓ : Loc nD τ sig) → Buf (Elt F) ℓ) (c : Dev nD) :
    (entryAt m c main_v0 : S10x3125x128.Idx → Elt F .f32)
      = shapeCast S10x3125x128 (m ((c.tc : Thread nD τ).loc main_arg0)) shapeCasts_S4000000_S10x3125x128 := by
  dsimp only [entryAt, entry]
  simp only [hostOps0, List.flatten_cons, List.flatten_nil, List.append_nil]
  after_results
  rfl

/-- The slab window's index map, decided over the ten points: point `t` fetches slab `t`, whole. -/
private theorem slab_index : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Slab `t` at row `r`, lane `l` is area number `400000 t + 128 r + l`. -/
theorem slab_apply (m : (ℓ : Loc nD τ sig) → Buf (Elt F) ℓ) (c : Dev nD) (t : Fin cfg0.N) (r : Fin 3125) (l : Fin 128) :
    blockAt m c 0 t (ix3 (0 : Fin 1) r l)
      = m ((c.tc : Thread nD τ).loc main_arg0) (ix1 (⟨400000 * t.val + 128 * r.val + l.val, by have := t.isLt; have : cfg0.N = 10 := N_0; omega⟩ : Fin 4000000)) := by
  have ht : t.val < 10 := by have := t.isLt; have : cfg0.N = 10 := N_0; omega
  obtain ⟨e0, e1, e2⟩ := slab_index t
  unfold blockAt
  show entryAt m c main_v0 (((cfg0.win 0).blk t).view.emb (ix3 (0 : Fin 1) r l)) = _
  rw [entry_slabs]
  -- the block's index (0, r, l), carried into the slab array, is (t, r, l)
  have hemb : ((cfg0.win 0).blk t).view.emb (ix3 (0 : Fin 1) r l) = ix3 (⟨t.val, ht⟩ : Fin 10) r l := by
    funext a; apply Fin.ext
    match a with
    | ⟨0, _⟩ => show win0_0.index t (0 : Fin 3) * 1 + 1 * 0 = t.val; omega
    | ⟨1, _⟩ => show win0_0.index t (1 : Fin 3) * 3125 + 1 * r.val = r.val; omega
    | ⟨2, _⟩ => show win0_0.index t (2 : Fin 3) * 128 + 1 * l.val = l.val; omega
  rw [hemb]
  -- and (t, r, l) of the re-laid array is row-major position 400000 t + 128 r + l of the areas
  exact shapeCast_apply _ shapeCasts_S4000000_S10x3125x128 _ _ (by
    rw [Shape.rowMajor_val_one, Shape.rowMajor_val_three]
    show 400000 * t.val + 128 * r.val + l.val = (t.val * 3125 + r.val) * 128 + l.val
    omega)

end Cert.KernelIdeal.SlabRead

end
-- ==== Proof.Plane.lean ====
/-
  The hillslope step both programs compute, written once over extended reals.

  From the total wetted area `s = Σ area`, the plane's width, and the soil and rain parameters, one explicit time step gives
  three numbers: the infiltration rate (Green–Ampt capacity against supply, clipped at zero), the infiltration depth over
  the step, and the discharge at the outlet node after a MUSCL update with the minmod limiter and Manning's law.  The
  discharge at the last node depends on the last three areas only: the slope-limited face states at the last two nodes,
  their Manning fluxes, and the lateral inflow from the net rain.
-/
import Idealize.ShloMosaic.PureOps
import Idealize.ShloMosaic.PureOps.Ideal
import Idealize.ShloMosaic.Lib.ValueIdx

noncomputable section

namespace Cert.Plane

open Idealize.ShloMosaic
open scoped BigOperators

/-- A single number. -/
abbrev Sc : Shape := ⟨0, ![]⟩
/-- One entry, and the three results side by side. -/
abbrev S1 : Shape := ⟨1, ![1]⟩
abbrev S3 : Shape := ⟨1, ![3]⟩
/-- The areas along the plane. -/
abbrev SN : Shape := ⟨1, ![4000000]⟩

abbrev Sca : Type := FVec Ideal Sc .f32

def zero : Sca := constant (F := Ideal) Sc .f32 0x00000000#32
def one : Sca := constant (F := Ideal) Sc .f32 0x3F800000#32
def half : Sca := constant (F := Ideal) Sc .f32 0x3F000000#32
/-- The floor under a divisor (the single-precision value nearest 1e-9). -/
def tiny : Sca := constant (F := Ideal) Sc .f32 0x3089705F#32
/-- The number of nodes, 4·10⁶. -/
def nodes : Sca := constant (F := Ideal) Sc .f32 0x4A742400#32
/-- The exponents of Manning's law as the programs carry them (the single-precision values nearest 5/3 and 2/3). -/
def expArea : Sca := constant (F := Ideal) Sc .f32 0x3FD55555#32
def expWidth : Sca := constant (F := Ideal) Sc .f32 0x3F2AAAAB#32

/-- The total wetted area: the sum of all four million areas. -/
def totalArea (A : FVec Ideal SN .f32) : Sca := fun _ => ∑ j : SN.Idx, A j

/-- The area at node `k`, as a single number. -/
def areaAt (A : FVec Ideal SN .f32) (k : Fin 4000000) : Sca := fun _ => A (ValueIdx.ix1 k)

/-- minmod(a, b): `sign a · min |a| |b|` where `a b > 0`, else zero. -/
def minmod (a b : Sca) : Sca :=
  select (cmpf .ogt (mulf a b) zero) (mulf (Host.sign a) (minimumf (Host.absf a) (Host.absf b))) (id zero)

/-- The upwind face state: the node's area plus half the limited slope, not below zero. -/
def faceArea (a slope : Sca) : Sca := maximumf (addf a (mulf half slope)) zero

/-- Manning's discharge `A^(5/3) · √S / (n · W^(2/3))`. -/
def manning (sl man wid A : Sca) : Sca :=
  mulf (Host.powf A expArea) (Host.divf (Host.sqrt sl) (mulf man (Host.powf wid expWidth)))

/-- The mean water depth: total area over the number of nodes, over the width. -/
def head (total wid : Sca) : Sca := Host.divf (Host.divf total nodes) wid

/-- The infiltration rate: the smaller of supply `rain + h / max dt tiny` and capacity
    `Ks · (1 + (ψ + h) · max (θs − θ) 0 / max F tiny)`, not below zero. -/
def infilRate (h theta fcum rain dt ks psi thetaS : Sca) : Sca :=
  maximumf (minimumf (addf rain (Host.divf h (maximumf dt tiny)))
      (mulf ks (addf one (Host.divf (mulf (addf psi h) (maximumf (subf thetaS theta) zero)) (maximumf fcum tiny))))) zero

/-- The lateral inflow per unit length: the net rain, not below zero, times the width. -/
def lateral (rain rate wid : Sca) : Sca := mulf (maximumf (subf rain rate) zero) wid

/-- The discharge at the last node after the step, from the last three areas `a0 a1 a2`: the flux out of the node before
    the last uses the slope limited between `a1 − a0` and `a2 − a1`; the flux out of the last node has no neighbour
    downstream, its forward difference is zero. -/
def outflow (a0 a1 a2 qlat dt dx sl man wid : Sca) : Sca :=
  manning sl man wid
    (maximumf (addf a2 (mulf dt (subf qlat (Host.divf
        (subf (manning sl man wid (faceArea a2 (minmod (subf a2 a1) zero)))
              (manning sl man wid (faceArea a1 (minmod (subf a1 a0) (subf a2 a1))))) dx)))) zero)

/-- The three results: outlet discharge, infiltration rate, infiltration depth. -/
def result (hb : Sc.BroadcastsInDim S1 (![] : Fin 0 → Fin S1.rank)) (hc : Shape.Concatenates [S1, S1, S1] S3 0)
    (total a0 a1 a2 theta fcum rain dt wid man sl dx ks psi thetaS : Sca) : FVec Ideal S3 .f32 :=
  concatenate S3 0
    [⟨S1, broadcastInDim S1 ![] hb (outflow a0 a1 a2
        (lateral rain (infilRate (head total wid) theta fcum rain dt ks psi thetaS) wid) dt dx sl man wid)⟩,
     ⟨S1, broadcastInDim S1 ![] hb (infilRate (head total wid) theta fcum rain dt ks psi thetaS)⟩,
     ⟨S1, broadcastInDim S1 ![] hb (mulf (infilRate (head total wid) theta fcum rain dt ks psi thetaS) dt)⟩] hc

end Cert.Plane

end
-- ==== Proof.IdealTail.lean ====
/-
  The scalar lines after the region, read as one function: whatever the buffers hold at the region's exit, after the later
  lines the three-entry result is the hillslope step of the kernel's one-entry total, the last three areas and the parameters
  (that the arguments are what they were is `Around.later_keeps`).

  The later lines are cut in two. The first hundred and one are scalar arithmetic: run from any contents, the buffers of the
  discharge, the rate and the depth hold the three numbers of the step (the same operations in the same order as the step's
  named functions, so each comparison is an unfolding; the one-entry slices of the areas re-laid as numbers are the areas at
  their nodes). The last four make the three numbers one-entry vectors and lay them side by side.
-/
import proofs.«144539_j80857054314543_1_alg».proof.Proof.IdealKit
import proofs.«144539_j80857054314543_1_alg».proof.Proof.Plane
import Idealize.ShloMosaic.Lib.StableHlo.Run
import Idealize.ShloMosaic.Lib.ValueIdx
import Idealize.ShloMosaic.Lib.Pipeline.Value

noncomputable section

namespace Cert.KernelIdeal.Tail

open Idealize.ShloMosaic Idealize.ShloMosaic.TcCoe Idealize.SL.Sem Idealize.ShloMosaic.ValueIdx Idealize.ShloMosaic.StableHlo
open Cert.KernelIdeal Cert.KernelIdeal.Gen Cert.KernelIdeal.Around

/-! ## Reading one area as a number -/

/-- The one-entry slice at node `n`, re-laid as a single number, is the area at that node. -/
private theorem pick_eq (A : FVec Ideal S4000000 .f32) (n : Nat) (hn : n < 4000000) (hs : S4000000.Slices ![n] S1) (hc : S1.ShapeCasts S_) :
    shapeCast S_ (extractStridedSlice S1 ![n] A hs) hc = Cert.Plane.areaAt A ⟨n, hn⟩ := by
  funext j
  unfold Cert.Plane.areaAt
  rw [shapeCast_apply _ hc j (ix1 0) (by
        have h1 := (S1.rowMajor (ix1 0)).isLt
        have h2 := (S_.rowMajor j).isLt
        have e1 : S1.numel = 1 := by decide
        have e2 : S_.numel = 1 := by decide
        omega),
      extractStridedSlice_apply _ A hs (ix1 0) (ix1 ⟨n, hn⟩) (fun a => by
        match a with
        | ⟨0, _⟩ => rfl)]

/-! ## The last four lines -/

/-- What a three-operand line leaves at its result: its function of the three operands' contents, each read at its own
    buffer. -/
private theorem nary3_result {τ' : Topo} {sg : RefSig} {Val : EltTy → Type} {x a b y : Ref sg .tc}
    (f : ((k : Fin 3) → ((![x, a, b] : Fin 3 → Ref sg .tc) k).ty.Contents Val) → y.ty.Contents Val) (hxs hy)
    (G : Valuation τ' sg Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The scalar lines: everything before the three results are made one-entry vectors and laid side by side. -/
private abbrev scalarLines : List (HloOp τ sig (Elt Ideal)) :=
  hostOps1 ++ (hostOps1_1 ++ (hostOps1_2 ++ (hostOps1_3 ++ List.take 28 hostOps1_4)))
/-- The last four lines. -/
private abbrev packLines : List (HloOp τ sig (Elt Ideal)) := List.drop 28 hostOps1_4

private theorem later_split : (later (F := Ideal)).flatten = scalarLines ++ packLines := by
  simp only [later, scalarLines, packLines, List.flatten_cons, List.flatten_nil, List.append_nil, List.append_assoc, List.take_append_drop]

/-- From any contents `G`, the last four lines leave in the result buffer the discharge, the rate and the depth held in
    their three scalar buffers, side by side. -/
private theorem packed (G : Valuation τ sig (Elt Ideal)) :
    StableHlo.after packLines G (Proc.devRef .tc main_v80)
      = concatenate S3 0
          [⟨S1, broadcastInDim S1 ![] bcast_S_S1 (G (Proc.devRef .tc main_v76))⟩,
           ⟨S1, broadcastInDim S1 ![] bcast_S_S1 (G (Proc.devRef .tc main_v17))⟩,
           ⟨S1, broadcastInDim S1 ![] bcast_S_S1 (G (Proc.devRef .tc main_v18))⟩] concatenates_S1_S1_S1_S3_d0 := by
  simp only [packLines, hostOps1_4, List.drop_succ_cons, List.drop_zero, after_cons, after_nil]
  rw [nary3_result]
  repeat (first | rw [unary_result] | (rw [unary_result_ne]; rotate_left; decide))
  rfl

/-! ## The three scalars -/

section Scalars
variable (W : Valuation τ sig (Elt Ideal))

/-- The kernel's one-entry total as a number, the last three areas, and the rate the step infiltrates at. -/
private abbrev total : Cert.Plane.Sca := shapeCast S_ (W (Proc.devRef .tc main_v1)) shapeCasts_S1x1_S_
private abbrev area0 : Cert.Plane.Sca := Cert.Plane.areaAt (W (Proc.devRef .tc main_arg0)) ⟨3999997, by decide⟩
private abbrev area1 : Cert.Plane.Sca := Cert.Plane.areaAt (W (Proc.devRef .tc main_arg0)) ⟨3999998, by decide⟩
private abbrev area2 : Cert.Plane.Sca := Cert.Plane.areaAt (W (Proc.devRef .tc main_arg0)) ⟨3999999, by decide⟩
private abbrev rate : Cert.Plane.Sca :=
  Cert.Plane.infilRate (Cert.Plane.head (total W) (W (Proc.devRef .tc main_arg6)))
    (W (Proc.devRef .tc main_arg1)) (W (Proc.devRef .tc main_arg2)) (W (Proc.devRef .tc main_arg3)) (W (Proc.devRef .tc main_arg4))
    (W (Proc.devRef .tc main_arg10)) (W (Proc.devRef .tc main_arg11)) (W (Proc.devRef .tc main_arg12))

/-- After the scalar lines the rate's buffer holds the infiltration rate of the mean depth. -/
private theorem rate_after : StableHlo.after scalarLines W (Proc.devRef .tc main_v17) = rate W := by
  simp only [scalarLines, hostOps1, hostOps1_1, hostOps1_2, hostOps1_3, hostOps1_4, List.take_succ_cons, List.take_zero,
    List.cons_append, List.nil_append]
  after_results_simp
  rfl

/-- The depth's buffer holds the rate times the step. -/
private theorem depth_after :
    StableHlo.after scalarLines W (Proc.devRef .tc main_v18) = mulf (rate W) (W (Proc.devRef .tc main_arg4)) := by
  simp only [scalarLines, hostOps1, hostOps1_1, hostOps1_2, hostOps1_3, hostOps1_4, List.take_succ_cons, List.take_zero,
    List.cons_append, List.nil_append]
  after_results_simp
  rfl

set_option maxRecDepth 16384 in
set_option maxHeartbeats 4000000 in
/-- The discharge's buffer holds the outlet discharge after the step, from the last three areas and the lateral inflow of
    the net rain. -/
private theorem flux_after :
    StableHlo.after scalarLines W (Proc.devRef .tc main_v76)
      = Cert.Plane.outflow (area0 W) (area1 W) (area2 W)
          (Cert.Plane.lateral (W (Proc.devRef .tc main_arg3)) (rate W) (W (Proc.devRef .tc main_arg6)))
          (W (Proc.devRef .tc main_arg4)) (W (Proc.devRef .tc main_arg9)) (W (Proc.devRef .tc main_arg8))
          (W (Proc.devRef .tc main_arg7)) (W (Proc.devRef .tc main_arg6)) := by
  simp only [scalarLines, hostOps1, hostOps1_1, hostOps1_2, hostOps1_3, hostOps1_4, List.take_succ_cons, List.take_zero,
    List.cons_append, List.nil_append]
  after_results_simp
  -- the three areas, as the slices the lines take
  unfold area0 area1 area2
  rw [← pick_eq (W (Proc.devRef .tc main_arg0)) 3999997 (by decide) slices_S4000000_S1_3999997 shapeCasts_S1_S_,
      ← pick_eq (W (Proc.devRef .tc main_arg0)) 3999998 (by decide) slices_S4000000_S1_3999998 shapeCasts_S1_S_,
      ← pick_eq (W (Proc.devRef .tc main_arg0)) 3999999 (by decide) slices_S4000000_S1_3999999 shapeCasts_S1_S_]
  rfl

end Scalars

/-! ## The result -/

/-- The result buffer after the later lines, from ANY contents `W` at the region's exit: the step of the one-entry total held in
    the kernel's result buffer (as a number), the areas at the last three nodes, and the scalar arguments. -/
theorem result_after (W : Valuation τ sig (Elt Ideal)) :
    StableHlo.after (later (F := Ideal)).flatten W (Proc.devRef .tc main_v80)
      = Cert.Plane.result bcast_S_S1 concatenates_S1_S1_S1_S3_d0
          (shapeCast S_ (W (Proc.devRef .tc main_v1)) shapeCasts_S1x1_S_)
          (Cert.Plane.areaAt (W (Proc.devRef .tc main_arg0)) ⟨3999997, by decide⟩)
          (Cert.Plane.areaAt (W (Proc.devRef .tc main_arg0)) ⟨3999998, by decide⟩)
          (Cert.Plane.areaAt (W (Proc.devRef .tc main_arg0)) ⟨3999999, by decide⟩)
          (W (Proc.devRef .tc main_arg1)) (W (Proc.devRef .tc main_arg2)) (W (Proc.devRef .tc main_arg3)) (W (Proc.devRef .tc main_arg4))
          (W (Proc.devRef .tc main_arg6)) (W (Proc.devRef .tc main_arg7)) (W (Proc.devRef .tc main_arg8)) (W (Proc.devRef .tc main_arg9))
          (W (Proc.devRef .tc main_arg10)) (W (Proc.devRef .tc main_arg11)) (W (Proc.devRef .tc main_arg12)) := by
  rw [later_split, StableHlo.after_append, packed, flux_after, rate_after, depth_after]
  rfl

end Cert.KernelIdeal.Tail

end
-- ==== Proof.IdealValue.lean ====
/-
  The summing program's value at the ideal instance.  One step of the running sum adds a slab's total; slab `t` is the stretch of
  400000 consecutive areas from `400000 t`; so the running sum over all ten slabs is the sum of all four million areas, and the
  kernel's one-entry result, read as a number, is the total wetted area.  The scalar lines after the region then make of it, of the
  last three areas and of the parameters, the three results of the hillslope step.
-/
import proofs.«144539_j80857054314543_1_alg».proof.Proof.IdealSum
import proofs.«144539_j80857054314543_1_alg».proof.Proof.SlabSum
import proofs.«144539_j80857054314543_1_alg».proof.Proof.SlabRead
import proofs.«144539_j80857054314543_1_alg».proof.Proof.IdealTail
import proofs.«144539_j80857054314543_1_alg».proof.Proof.Plane

set_option maxRecDepth 8192

noncomputable section

namespace Cert.KernelIdeal.Outlet

open Idealize.ShloMosaic Idealize.ShloMosaic.TcCoe Idealize.SL.Sem Idealize.ShloMosaic.ValueIdx
open Cert.KernelIdeal Cert.KernelIdeal.Gen Cert.KernelIdeal.Around
open scoped BigOperators

variable (m : (ℓ : Loc nD τ sig) → Buf (Elt Ideal) ℓ) (ρ : Dev nD → PrngReg)

/-- The areas, and slab `t` of the re-laid areas as the region finds it, at their literal types. -/
abbrev areas (c : Dev nD) : FVec Ideal S4000000 .f32 := m ((c.tc : Thread nD τ).loc main_arg0)
abbrev slab (c : Dev nD) (t : Fin cfg0.N) : Vec Ideal S1x3125x128 .f32 := blockAt m c 0 t
/-- The running sum after point `n`, at its literal type. -/
abbrev sumTo (c : Dev nD) (n : ℕ) (h : n < cfg0.N) : Vec Ideal S1x1 .f32 := runningSum m c n h

/-- The total of the stretch of 400000 areas that is slab `t`. -/
def slabTotal (A : FVec Ideal S4000000 .f32) (t : Fin 10) : EReal :=
  ∑ r : Fin 3125, ∑ l : Fin 128, A (ix1 (⟨400000 * t.val + 128 * r.val + l.val, by omega⟩ : Fin 4000000))

/-- Slab `t`'s entries, summed rows first, are that total. -/
theorem block_total (c : Dev nD) (t : Fin cfg0.N) :
    ∑ r : Fin 3125, ∑ l : Fin 128, slab m c t (ix3 (0 : Fin 1) r l)
      = slabTotal (areas m c) ⟨t.val, lt_of_lt_of_eq t.isLt N_0⟩ :=
  Finset.sum_congr rfl fun r _ => Finset.sum_congr rfl fun l _ => SlabRead.slab_apply m c t r l

/-- The running sum after point `n` is the sum of the totals of slabs 0 … n. -/
theorem runningSum_apply (c : Dev nD) (j : S1x1.Idx) : ∀ (n : ℕ) (h : n < cfg0.N),
    sumTo m c n h j
      = ∑ k ∈ Finset.range (n + 1), (if hk : k < 10 then slabTotal (areas m c) ⟨k, hk⟩ else 0)
  | 0, h => by
    show k0_pay2 (F := Ideal) (slab m c ⟨0, h⟩) (k0_pay1 (F := Ideal)) j = _
    rw [SlabSum.step_apply, SlabSum.reset_apply, zero_add, Finset.sum_range_one, dif_pos (by decide), block_total]
  | n + 1, h => by
    show k0_pay2 (F := Ideal) (slab m c ⟨n + 1, h⟩) (sumTo m c n (Nat.lt_of_succ_lt h)) j = _
    have h10 : n + 1 < 10 := lt_of_lt_of_eq h N_0
    rw [SlabSum.step_apply, runningSum_apply c j n, Finset.sum_range_succ _ (n + 1), dif_pos h10, block_total]

/-- Over all ten slabs it is the sum of all the areas. -/
theorem sumAll_apply (c : Dev nD) (j : S1x1.Idx) :
    (sumAll m c : Vec Ideal S1x1 .f32) j = ∑ i : S4000000.Idx, areas m c i := by
  rw [show (sumAll m c : Vec Ideal S1x1 .f32) j = sumTo m c 9 (by rw [show cfg0.N = 10 from N_0]; decide) j from rfl, runningSum_apply,
    Finset.sum_range]
  rw [Finset.sum_congr rfl fun (t : Fin 10) _ => dif_pos t.isLt]
  exact SlabSum.slabs_total _

/-- The kernel's one-entry result, as a number, is the total wetted area. -/
theorem total_eq (c : Dev nD) :
    shapeCast S_ (sumAll m c : Vec Ideal S1x1 .f32) shapeCasts_S1x1_S_ = Cert.Plane.totalArea (areas m c) := by
  funext i
  rw [shapeCast_apply (sumAll m c : Vec Ideal S1x1 .f32) shapeCasts_S1x1_S_ i (ix2 (0 : Fin 1) (0 : Fin 1)) rfl]
  exact sumAll_apply m c _

/-- THE KERNEL'S VALUE: every weakly fair run of the program ends, faulting nowhere, with the three-entry result at the
    hillslope step of the total area, the last three areas and the parameters, and the fourteen arguments as they were. -/
theorem run : θ_run defs (onTc (τ := τ) (main (F := Ideal))) ⟨m, fun _ => 0, ρ⟩ (fun r => ∀ c : Dev nD,
      r.2.mem ((c.tc : Thread nD τ).loc main_v80)
        = Cert.Plane.result bcast_S_S1 concatenates_S1_S1_S1_S3_d0
            (Cert.Plane.totalArea (m ((c.tc : Thread nD τ).loc main_arg0)))
            (Cert.Plane.areaAt (m ((c.tc : Thread nD τ).loc main_arg0)) ⟨3999997, by decide⟩)
            (Cert.Plane.areaAt (m ((c.tc : Thread nD τ).loc main_arg0)) ⟨3999998, by decide⟩)
            (Cert.Plane.areaAt (m ((c.tc : Thread nD τ).loc main_arg0)) ⟨3999999, by decide⟩)
            (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ⟨?_, args_kept m h c⟩) (run_main m ρ)
  -- the result buffer bypasses the region: it holds what the scalar lines make of the region's exit contents
  rw [(h c).2 main_v80 (bypasses main_v80 rfl (by decide) (by decide))]
  unfold Pipeline.afterTail₀
  rw [Tail.result_after]
  -- at the region's exit: the kernel's result array at the running sum, every argument at its launch contents
  have hres : Pipeline.withArrays (cfgs 0).spec c (entry m c) (fun w => (dats m 0 c).arrAt w (cfgs 0).N) (Proc.devRef .tc main_v1)
      = sumAll m c :=
    (Pipeline.withArrays_arr spec0 launch0.win.arr_inj c _ _ 1).trans (result_array m c)
  have harg : ∀ b : Ref sig .tc, b ≠ main_v0 → b ≠ main_v1 →
      Pipeline.withArrays (cfgs 0).spec c (entry m c) (fun w => (dats m 0 c).arrAt w (cfgs 0).N) (Proc.devRef .tc b)
        = m ((c.tc : Thread nD τ).loc b) := fun b h0 h1 =>
    (Pipeline.withArrays_of_ne spec0 c (entry m c) _ b (fun w => by
      fin_cases w
      · exact fun e => h0 e.symm
      · exact fun e => h1 e.symm)).trans (entry_keeps m c h0)
  rw [hres, total_eq,
    harg main_arg0 (by decide) (by decide), harg main_arg1 (by decide) (by decide), harg main_arg2 (by decide) (by decide),
    harg main_arg3 (by decide) (by decide), harg main_arg4 (by decide) (by decide), harg main_arg6 (by decide) (by decide),
    harg main_arg7 (by decide) (by decide), harg main_arg8 (by decide) (by decide), harg main_arg9 (by decide) (by decide),
    harg main_arg10 (by decide) (by decide), harg main_arg11 (by decide) (by decide), harg main_arg12 (by decide) (by decide)]

end Cert.KernelIdeal.Outlet

end
-- ==== Proof.RefStretches.lean ====
/-
  The reference program's run, read back by stretches.  @main is ninety-nine host operations in a line.  Read from any
  buffer contents, a stretch of the line leaves each buffer it writes at that operation's function of what the stretch found;
  so the line is cut where few values are alive — after the scalar infiltration part, after the two neighbour differences,
  after the face fluxes — and the stretches are composed: the result buffer ends at the last operation's stage as a function
  of the fourteen arguments, and no operation writes an argument.
-/
import proofs.«144539_j80857054314543_1_alg».proof.Proof.RefRead
import Idealize.ShloMosaic.Lib.StableHlo.Run

noncomputable section

namespace Cert.ReferenceIdeal.Stretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The line in five stretches -/

/-- Operations 0–27, all on scalars: the sum of the depth field and its mean, the infiltration rate clipped between zero
    and the supply (`main_v15`), its product with the time step (`main_v16`), the clipped remainder of the supply (`main_v19`). -/
private abbrev scalars : List (HloOp τ sig (Elt F)) := (ops (F := F)).take 28
/-- Operations 28–37: the depth field's difference with its left neighbour (`main_v21`) and with its right neighbour
    (`main_v23`), the end cell repeated on either side. -/
private abbrev differences : List (HloOp τ sig (Elt F)) := ((ops (F := F)).drop 28).take 10
/-- Operations 38–67: the limited slope (the smaller difference where the two agree in sign, zero elsewhere), the depth at
    the cell's face clipped at zero, and its five-thirds power times the conveyance: the face flux (`main_v45`). -/
private abbrev fluxes : List (HloOp τ sig (Elt F)) := (((ops (F := F)).drop 28).drop 10).take 30
/-- Operations 68–97: the fluxes' difference over the cell, the updated depth clipped at zero, its flux, the last cell's flux
    as a one-element vector (`main_v69`), and the two scalars `main_v15`, `main_v16` as one-element vectors (`main_v70`, `main_v71`). -/
private abbrev update : List (HloOp τ sig (Elt F)) := ((((ops (F := F)).drop 28).drop 10).drop 30).take 30
/-- Operation 98: the three one-element vectors joined (`main_v72`). -/
private abbrev outlet : List (HloOp τ sig (Elt F)) := ((((ops (F := F)).drop 28).drop 10).drop 30).drop 30

/-- The contents after two lines in a row. -/
private theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- A line is its first `n` operations and then the rest. -/
private theorem after_take_drop (n : Nat) (l : List (HloOp τ sig (Elt F))) (V : Valuation τ sig (Elt F)) :
    after l V = after (l.drop n) (after (l.take n) V) := by
  rw [← after_append, List.take_append_drop]

/-- The whole line is the five stretches in a row. -/
private theorem ops_stretches (V : Valuation τ sig (Elt F)) :
    after (ops (F := F)) V
      = after outlet (after update (after fluxes (after differences (after scalars V)))) := by
  rw [after_take_drop 28 ops V, after_take_drop 10 (ops.drop 28), after_take_drop 30 ((ops.drop 28).drop 10),
    after_take_drop 30 (((ops.drop 28).drop 10).drop 30)]

/-! ## What a stretch does not write -/

/-- The fourteen arguments. -/
private abbrev arguments : List (Ref sig .tc) :=
  [main_arg0, main_arg1, main_arg2, main_arg3, main_arg4, main_arg5, main_arg6, main_arg7, main_arg8, main_arg9,
   main_arg10, main_arg11, main_arg12, main_arg13]

/-- The three scalars that the last stretches read again. -/
private abbrev carried : List (Ref sig .tc) := [main_v15, main_v16, main_v19]

/-- An operation that writes one buffer, which is none of the list's. -/
private abbrev WritesOutside (L : List (Ref sig .tc)) (op : HloOp τ sig (Elt F)) : Prop :=
  ∃ y : Ref sig .tc, op.writes = {(Proc.devRef .tc y : DevRef τ sig)} ∧ y ∉ L

/-- A buffer of the list holds after such operations what it held before them. -/
private theorem keeps {L : List (Ref sig .tc)} {l : List (HloOp τ sig (Elt F))} (h : ∀ op ∈ l, WritesOutside L op)
    (V : Valuation τ sig (Elt F)) {b : Ref sig .tc} (hb : b ∈ L) :
    after l V (Proc.devRef .tc b) = V (Proc.devRef .tc b) :=
  after_of_forall_not_mem l V fun op hop => by
    obtain ⟨y, hw, hy⟩ := h op hop
    rw [hw, Finset.mem_singleton]
    exact devRef_ne_of_ne fun e => hy (e ▸ hb)

set_option maxRecDepth 8192 in
/-- Each of the ninety-nine operations writes one buffer, never an argument. -/
private theorem ops_outside_arguments : ∀ op ∈ (ops (F := F)), WritesOutside arguments op :=
  List.forall_iff_forall_mem.mp (by
    simp only [ops, List.Forall]
    repeat' apply And.intro
    all_goals exact ⟨_, rfl, by decide⟩)

set_option maxRecDepth 8192 in
/-- The differences write none of the three scalars, -/
private theorem differences_outside_carried : ∀ op ∈ (differences (F := F)), WritesOutside carried op :=
  List.forall_iff_forall_mem.mp (by
    simp only [differences, ops, List.take_succ_cons, List.take_zero, List.drop_succ_cons, List.drop_zero, List.Forall]
    repeat' apply And.intro
    all_goals exact ⟨_, rfl, by decide⟩)

set_option maxRecDepth 8192 in
/-- nor do the fluxes. -/
private theorem fluxes_outside_carried : ∀ op ∈ (fluxes (F := F)), WritesOutside carried op :=
  List.forall_iff_forall_mem.mp (by
    simp only [fluxes, ops, List.take_succ_cons, List.take_zero, List.drop_succ_cons, List.drop_zero, List.Forall]
    repeat' apply And.intro
    all_goals exact ⟨_, rfl, by decide⟩)

/-- No operation of the line writes an argument: each holds at the end what it held at launch. -/
private theorem argument_after (V : Valuation τ sig (Elt F)) {b : Ref sig .tc} (hb : b ∈ arguments) :
    after (ops (F := F)) V (Proc.devRef .tc b) = V (Proc.devRef .tc b) :=
  keeps ops_outside_arguments V hb

/-- So does each stretch, being part of the line. -/
private theorem scalars_keeps (W : Valuation τ sig (Elt F)) {b : Ref sig .tc} (hb : b ∈ arguments) :
    after (scalars (F := F)) W (Proc.devRef .tc b) = W (Proc.devRef .tc b) :=
  keeps (fun op h => ops_outside_arguments op (List.mem_of_mem_take h)) W hb

private theorem differences_keeps (W : Valuation τ sig (Elt F)) {b : Ref sig .tc} (hb : b ∈ arguments) :
    after (differences (F := F)) W (Proc.devRef .tc b) = W (Proc.devRef .tc b) :=
  keeps (fun op h => ops_outside_arguments op (List.mem_of_mem_drop (List.mem_of_mem_take h))) W hb

private theorem fluxes_keeps (W : Valuation τ sig (Elt F)) {b : Ref sig .tc} (hb : b ∈ arguments) :
    after (fluxes (F := F)) W (Proc.devRef .tc b) = W (Proc.devRef .tc b) :=
  keeps (fun op h => ops_outside_arguments op (List.mem_of_mem_drop (List.mem_of_mem_drop (List.mem_of_mem_take h)))) W hb

/-! ## What each stretch writes

Each stretch is read from contents `W` that hold at the arguments what the launch contents `V` hold, and, where it reads a
buffer an earlier stretch wrote, that stage's value of `V` at the arguments; it leaves its own last buffers at their stages'
values of `V` at the arguments. -/

/-- An operation's result is its function of its operands' contents at its own buffer and what was there at any other:
    said of the pieces that a concatenation joins. -/
local macro "results_in_pieces" : tactic =>
  `(tactic| repeat (first
      | rw [nullary_result] | rw [unary_result] | rw [binary_result]
      | (rw [nullary_result_ne]; rotate_left; decide)
      | (rw [unary_result_ne]; rotate_left; decide)
      | (rw [binary_result_ne]; rotate_left; decide)))

set_option maxRecDepth 8192 in
/-- The scalars leave the clipped infiltration rate, -/
private theorem scalars_v15 (V : Valuation τ sig (Elt F)) :
    after (scalars (F := F)) V (Proc.devRef .tc main_v15)
      = val_main_v15 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)) := by
  simp only [scalars, ops, List.take_succ_cons, List.take_zero, List.drop_succ_cons, List.drop_zero]
  after_results_simp
  rfl

set_option maxRecDepth 8192 in
/-- its product with the time step, -/
private theorem scalars_v16 (V : Valuation τ sig (Elt F)) :
    after (scalars (F := F)) V (Proc.devRef .tc main_v16)
      = val_main_v16 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)) := by
  simp only [scalars, ops, List.take_succ_cons, List.take_zero, List.drop_succ_cons, List.drop_zero]
  after_results_simp
  rfl

set_option maxRecDepth 8192 in
/-- and the clipped remainder of the supply. -/
private theorem scalars_v19 (V : Valuation τ sig (Elt F)) :
    after (scalars (F := F)) V (Proc.devRef .tc main_v19)
      = val_main_v19 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)) := by
  simp only [scalars, ops, List.take_succ_cons, List.take_zero, List.drop_succ_cons, List.drop_zero]
  after_results_simp
  rfl

set_option maxRecDepth 8192 in
/-- The differences leave the difference with the left neighbour -/
private theorem differences_v21 (W V : Valuation τ sig (Elt F))
    (hA : ∀ {b : Ref sig .tc}, b ∈ arguments → W (Proc.devRef .tc b) = V (Proc.devRef .tc b)) :
    after (differences (F := F)) W (Proc.devRef .tc main_v21) = val_main_v21 (F := F) (V (Proc.devRef .tc main_arg0)) := by
  simp only [differences, ops, List.take_succ_cons, List.take_zero, List.drop_succ_cons, List.drop_zero]
  after_results_simp
  results_in_pieces
  rw [hA (b := main_arg0) (by decide)]
  rfl

set_option maxRecDepth 8192 in
/-- and with the right neighbour. -/
private theorem differences_v23 (W V : Valuation τ sig (Elt F))
    (hA : ∀ {b : Ref sig .tc}, b ∈ arguments → W (Proc.devRef .tc b) = V (Proc.devRef .tc b)) :
    after (differences (F := F)) W (Proc.devRef .tc main_v23) = val_main_v23 (F := F) (V (Proc.devRef .tc main_arg0)) := by
  simp only [differences, ops, List.take_succ_cons, List.take_zero, List.drop_succ_cons, List.drop_zero]
  after_results_simp
  results_in_pieces
  rw [hA (b := main_arg0) (by decide)]
  rfl

set_option maxRecDepth 8192 in
/-- From the two differences, the fluxes leave the face flux. -/
private theorem fluxes_v45 (W V : Valuation τ sig (Elt F))
    (hA : ∀ {b : Ref sig .tc}, b ∈ arguments → W (Proc.devRef .tc b) = V (Proc.devRef .tc b))
    (h21 : W (Proc.devRef .tc main_v21) = val_main_v21 (F := F) (V (Proc.devRef .tc main_arg0)))
    (h23 : W (Proc.devRef .tc main_v23) = val_main_v23 (F := F) (V (Proc.devRef .tc main_arg0))) :
    after (fluxes (F := F)) W (Proc.devRef .tc main_v45)
      = val_main_v45 (F := F) (V (Proc.devRef .tc main_arg0)) (V (Proc.devRef .tc main_arg6)) (V (Proc.devRef .tc main_arg7)) (V (Proc.devRef .tc main_arg8)) := by
  simp only [fluxes, ops, List.take_succ_cons, List.take_zero, List.drop_succ_cons, List.drop_zero]
  after_results_simp
  rw [h21, h23, hA (b := main_arg0) (by decide), hA (b := main_arg6) (by decide), hA (b := main_arg7) (by decide), hA (b := main_arg8) (by decide)]
  rfl

set_option maxRecDepth 8192 in
/-- From the face flux and the remainder of the supply, the update leaves the last cell's new flux, -/
private theorem update_v69 (W V : Valuation τ sig (Elt F))
    (hA : ∀ {b : Ref sig .tc}, b ∈ arguments → W (Proc.devRef .tc b) = V (Proc.devRef .tc b))
    (h45 : W (Proc.devRef .tc main_v45) = val_main_v45 (F := F) (V (Proc.devRef .tc main_arg0)) (V (Proc.devRef .tc main_arg6)) (V (Proc.devRef .tc main_arg7)) (V (Proc.devRef .tc main_arg8)))
    (h19 : W (Proc.devRef .tc main_v19)
      = val_main_v19 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12))) :
    after (update (F := F)) W (Proc.devRef .tc main_v69)
      = val_main_v69 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) := by
  simp only [update, ops, List.take_succ_cons, List.take_zero, List.drop_succ_cons, List.drop_zero]
  after_results_simp
  results_in_pieces
  rw [h45, h19, hA (b := main_arg0) (by decide), hA (b := main_arg4) (by decide), hA (b := main_arg6) (by decide), hA (b := main_arg7) (by decide), hA (b := main_arg8) (by decide), hA (b := main_arg9) (by decide)]
  rfl

set_option maxRecDepth 8192 in
/-- the infiltration rate as a one-element vector, -/
private theorem update_v70 (W V : Valuation τ sig (Elt F))
    (h15 : W (Proc.devRef .tc main_v15)
      = val_main_v15 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12))) :
    after (update (F := F)) W (Proc.devRef .tc main_v70)
      = val_main_v70 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)) := by
  simp only [update, ops, List.take_succ_cons, List.take_zero, List.drop_succ_cons, List.drop_zero]
  after_results_simp
  rw [h15]
  rfl

set_option maxRecDepth 8192 in
/-- and its product with the time step as one. -/
private theorem update_v71 (W V : Valuation τ sig (Elt F))
    (h16 : W (Proc.devRef .tc main_v16)
      = val_main_v16 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12))) :
    after (update (F := F)) W (Proc.devRef .tc main_v71)
      = val_main_v71 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)) := by
  simp only [update, ops, List.take_succ_cons, List.take_zero, List.drop_succ_cons, List.drop_zero]
  after_results_simp
  rw [h16]
  rfl

set_option maxRecDepth 8192 in
/-- The last operation joins the three one-element vectors. -/
private theorem outlet_v72 (W V : Valuation τ sig (Elt F))
    (h69 : W (Proc.devRef .tc main_v69)
      = val_main_v69 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)))
    (h70 : W (Proc.devRef .tc main_v70)
      = val_main_v70 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12)))
    (h71 : W (Proc.devRef .tc main_v71)
      = val_main_v71 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg10)) (V (Proc.devRef .tc main_arg11))
          (V (Proc.devRef .tc main_arg12))) :
    after (outlet (F := F)) W (Proc.devRef .tc main_v72)
      = val_main_v72 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) := by
  simp only [outlet, ops, List.take_succ_cons, List.take_zero, List.drop_succ_cons, List.drop_zero, after_cons, after_nil]
  rw [nary_result]
  show concatenate S3 0 [⟨S1, W (Proc.devRef .tc main_v69)⟩, ⟨S1, W (Proc.devRef .tc main_v70)⟩,
    ⟨S1, W (Proc.devRef .tc main_v71)⟩] concatenates_S1_S1_S1_S3_d0 = _
  rw [h69, h70, h71]
  rfl

/-! ## The stretches composed -/

/-- After the whole line the result buffer holds the last stage's value of the launch contents at the arguments. -/
private theorem result_after (V : Valuation τ sig (Elt F)) :
    after (ops (F := F)) V (Proc.devRef .tc main_v72)
      = val_main_v72 (F := F) (V (Proc.devRef .tc main_arg0)) (V (Proc.devRef .tc main_arg1)) (V (Proc.devRef .tc main_arg2)) (V (Proc.devRef .tc main_arg3))
          (V (Proc.devRef .tc main_arg4)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) := by
  rw [ops_stretches]
  -- after the scalars: the arguments as they were, the three scalars at their stages
  have a₁ : ∀ {b : Ref sig .tc}, b ∈ arguments → after (scalars (F := F)) V (Proc.devRef .tc b) = V (Proc.devRef .tc b) :=
    fun hb => scalars_keeps V hb
  have s15 := scalars_v15 V
  have s16 := scalars_v16 V
  have s19 := scalars_v19 V
  generalize after (scalars (F := F)) V = W₁ at a₁ s15 s16 s19 ⊢
  -- after the differences: the same, and the two differences
  have a₂ : ∀ {b : Ref sig .tc}, b ∈ arguments → after (differences (F := F)) W₁ (Proc.devRef .tc b) = V (Proc.devRef .tc b) :=
    fun hb => (differences_keeps W₁ hb).trans (a₁ hb)
  have d15 := (keeps differences_outside_carried W₁ (b := main_v15) (by decide)).trans s15
  have d16 := (keeps differences_outside_carried W₁ (b := main_v16) (by decide)).trans s16
  have d19 := (keeps differences_outside_carried W₁ (b := main_v19) (by decide)).trans s19
  have d21 := differences_v21 W₁ V a₁
  have d23 := differences_v23 W₁ V a₁
  generalize after (differences (F := F)) W₁ = W₂ at a₂ d15 d16 d19 d21 d23 ⊢
  -- after the fluxes: the arguments, the three scalars, and the face flux
  have a₃ : ∀ {b : Ref sig .tc}, b ∈ arguments → after (fluxes (F := F)) W₂ (Proc.devRef .tc b) = V (Proc.devRef .tc b) :=
    fun hb => (fluxes_keeps W₂ hb).trans (a₂ hb)
  have f15 := (keeps fluxes_outside_carried W₂ (b := main_v15) (by decide)).trans d15
  have f16 := (keeps fluxes_outside_carried W₂ (b := main_v16) (by decide)).trans d16
  have f19 := (keeps fluxes_outside_carried W₂ (b := main_v19) (by decide)).trans d19
  have f45 := fluxes_v45 W₂ V a₂ d21 d23
  generalize after (fluxes (F := F)) W₂ = W₃ at a₃ f15 f16 f19 f45 ⊢
  -- after the update: the three one-element vectors; the last operation joins them
  exact outlet_v72 _ V (update_v69 W₃ V a₃ f45 f19) (update_v70 W₃ V f15) (update_v71 W₃ V f16)

/-! ## The run -/

/-- Every weakly fair execution of the reference ends, faulting nowhere, with the result buffer at the last stage's value of
    the arguments' launch contents and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
        = val_main_v72 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c =>
      ⟨(h c main_v72).trans (result_after _),
       (h c main_arg0).trans (argument_after _ (by decide)), (h c main_arg1).trans (argument_after _ (by decide)),
       (h c main_arg2).trans (argument_after _ (by decide)), (h c main_arg3).trans (argument_after _ (by decide)),
       (h c main_arg4).trans (argument_after _ (by decide)), (h c main_arg5).trans (argument_after _ (by decide)),
       (h c main_arg6).trans (argument_after _ (by decide)), (h c main_arg7).trans (argument_after _ (by decide)),
       (h c main_arg8).trans (argument_after _ (by decide)), (h c main_arg9).trans (argument_after _ (by decide)),
       (h c main_arg10).trans (argument_after _ (by decide)), (h c main_arg11).trans (argument_after _ (by decide)),
       (h c main_arg12).trans (argument_after _ (by decide)), (h c main_arg13).trans (argument_after _ (by decide))⟩)
    (run_seq scopedRefs_eq scopedSems_eq defs main (fun _ => ops) main_eq (fun _ => ops_sub) m ρ)

end Cert.ReferenceIdeal.Stretches

end
-- ==== Proof.RefFrame.lean ====
/-
  The reference program's frame: it is a straight-line host program, so every weakly fair run of it ends, faults nowhere,
  and leaves its fourteen argument arrays as it found them. This is the reference's run read back by stretches,
  with the statement about the result array dropped.
-/
import proofs.«144539_j80857054314543_1_alg».proof.Defs
import proofs.«144539_j80857054314543_1_alg».proof.Proof.Gen.ReferenceIdeal
import proofs.«144539_j80857054314543_1_alg».proof.Proof.Gen.Pre_finite_inputs
import proofs.«144539_j80857054314543_1_alg».proof.Proof.RefStretches

noncomputable section

namespace Cert.Proof.RefFrame

open Idealize.ShloMosaic Idealize.SL.Sem

attribute [local instance] Cert.ReferenceIdeal.Gen.facts Cert.Pre_finite_inputs.Gen.facts

/-- The reference runs to its end without a fault and keeps its arguments. -/
theorem frame_ri : Cert.frame_ReferenceIdeal := fun m ρ _ =>
  (θ_run Cert.ReferenceIdeal.defs _ _).mono (fun _ h c => (h c).2) (Cert.ReferenceIdeal.Stretches.run (F := Ideal) m ρ)

end Cert.Proof.RefFrame

end
-- ==== Proof.RefOutlet.lean ====
/-
  The reference at the outlet.  The reference carries the MUSCL update as whole-array operations over all four million nodes and
  reads the discharge at the last node; each of those operations acts entry by entry (differences of neighbours through the
  padded copies, the limiter, the face state, Manning's law, the shift of the fluxes by one node), so the last entry depends on
  the last three areas only, and is the same arithmetic the hillslope step spells on single numbers.  One spot needs the
  precondition: the reference takes the outlet's forward difference as `a − a` of the last area with itself, which is zero
  because that area is a real number.
-/
import proofs.«144539_j80857054314543_1_alg».proof.Proof.RefRead
import proofs.«144539_j80857054314543_1_alg».proof.Proof.Plane
import Idealize.ShloMosaic.Lib.ValueIdx
import Idealize.ShloMosaic.Lib.Pipeline.Value
import Idealize.ShloMosaic.PureOps.Ideal.Laws

noncomputable section

namespace Cert.ReferenceIdeal.Outlet

open Idealize.ShloMosaic Idealize.ShloMosaic.TcCoe Idealize.SL.Sem Idealize.ShloMosaic.ValueIdx
open Cert.ReferenceIdeal Cert.ReferenceIdeal.Gen Cert.ReferenceIdeal.ReadP
open scoped BigOperators

private abbrev Arr := (⟨S4000000, .f32⟩ : BufTy).Contents (Elt Ideal)
private abbrev Scl := (⟨S_, .f32⟩ : BufTy).Contents (Elt Ideal)

/-! ### The scalar part: total area, infiltration rate, lateral inflow -/

/-- The reference's sum of the areas starts from the constant zero, so it is the plain sum. -/
private theorem total_eq (A : Arr) : val_main_v0 (F := Ideal) A = Cert.Plane.totalArea A := by
  funext i
  rw [val_main_v0_apply, val_main_cst_apply]
  show Ideal.ofBits .f32 0x00000000#32 + _ = _
  rw [Ideal.ofBits_zero_f32, zero_add]
  rfl

/-- The reference's infiltration rate is the step's, operation for operation, on the mean depth of the total area. -/
private theorem rate_eq (A : Arr) (theta fcum rain dt wid ks psi thetaS : Scl) :
    val_main_v15 (F := Ideal) A theta fcum rain dt wid ks psi thetaS
      = Cert.Plane.infilRate (Cert.Plane.head (Cert.Plane.totalArea A) wid) theta fcum rain dt ks psi thetaS := by
  rw [← total_eq]
  rfl

/-- The reference's lateral inflow is the step's: the net rain, not below zero, times the width. -/
private theorem lateral_eq (A : Arr) (theta fcum rain dt wid ks psi thetaS : Scl) :
    val_main_v19 (F := Ideal) A theta fcum rain dt wid ks psi thetaS
      = Cert.Plane.lateral rain
          (Cert.Plane.infilRate (Cert.Plane.head (Cert.Plane.totalArea A) wid) theta fcum rain dt ks psi thetaS) wid := by
  rw [← rate_eq]
  rfl

/-! ### The padded copies and the shifted fluxes, entry by entry -/

/-- The areas with the first one repeated in front: the entry after position `k` is area `k`. -/
private theorem front_read (A : Arr) (j : S4000001.Idx) (k : Fin 4000000) (h : (j 0).val = k.val + 1) :
    val_main_call0_v0 (F := Ideal) A j = A (ix1 k) := by
  unfold val_main_call0_v0
  exact concatenate_pair_apply_right (t := S4000001) (s₁ := S1) (s₂ := S4000000) (0 : Fin 1) _ _
    concatenates_S1_S4000000_S4000001_d0 j rfl rfl (ix1 k)
    (by
      intro b hb
      match b with
      | ⟨0, _⟩ => exact absurd rfl hb)
    (by show k.val + 1 = (j 0).val; omega)

/-- The areas with the last one repeated behind: an entry below the end is the area at that position. -/
private theorem back_read (A : Arr) (j : S4000001.Idx) (k : Fin 4000000) (h : (j 0).val = k.val) :
    val_main_call1_v0 (F := Ideal) A j = A (ix1 k) := by
  unfold val_main_call1_v0
  exact concatenate_pair_apply_left (t := S4000001) (s₁ := S4000000) (s₂ := S1) (0 : Fin 1) _ _
    concatenates_S4000000_S1_S4000001_d0 j rfl (ix1 k)
    (by
      intro b
      match b with
      | ⟨0, _⟩ => exact h.symm)

/-- The areas with the last one repeated behind: the entry at the end is the last area again. -/
private theorem back_read_last (A : Arr) (j : S4000001.Idx) (h : (j 0).val = 4000000) :
    val_main_call1_v0 (F := Ideal) A j = A (ix1 (⟨3999999, by omega⟩ : Fin 4000000)) := by
  unfold val_main_call1_v0
  refine (concatenate_pair_apply_right (t := S4000001) (s₁ := S4000000) (s₂ := S1) (0 : Fin 1) _ _
    concatenates_S4000000_S1_S4000001_d0 j rfl rfl (ix1 (⟨0, by omega⟩ : Fin 1))
    (by
      intro b hb
      match b with
      | ⟨0, _⟩ => exact absurd rfl hb)
    (by show 0 + 4000000 = (j 0).val; omega)).trans ?_
  rw [val_main_v22_apply]
  refine congrArg A (funext fun a => ?_)
  match a with
  | ⟨0, _⟩ => exact Fin.ext (by show 3999999 + 0 = 3999999; omega)

/-- The fluxes shifted by one node behind a zero: the entry after position `k` is the flux out of node `k`. -/
private theorem inflow_read (A : Arr) (wid man sl : Scl) (j : S4000000.Idx) (k : Fin 4000000) (h : (j 0).val = k.val + 1) :
    val_main_v48 (F := Ideal) A wid man sl j = val_main_v45 (F := Ideal) A wid man sl (ix1 k) := by
  have hj : (j 0).val < 4000000 := (j 0).isLt
  unfold val_main_v48
  refine (concatenate_pair_apply_right (t := S4000000) (s₁ := S1) (s₂ := S3999999) (0 : Fin 1) _ _
    concatenates_S1_S3999999_S4000000_d0 j rfl rfl (ix1 (⟨k.val, by omega⟩ : Fin 3999999))
    (by
      intro b hb
      match b with
      | ⟨0, _⟩ => exact absurd rfl hb)
    (by show k.val + 1 = (j 0).val; omega)).trans ?_
  rw [val_main_v47_apply]
  refine congrArg (val_main_v45 (F := Ideal) A wid man sl) (funext fun a => ?_)
  match a with
  | ⟨0, _⟩ => rfl

/-! ### The differences of neighbours -/

/-- The backward difference at a node past the first: its area less the area upstream. -/
private theorem backDiff_read (A : Arr) (k k' : Fin 4000000) (h : k.val = k'.val + 1) :
    val_main_v21 (F := Ideal) A (ix1 k) = FloatOps.subf (F := Ideal) (φ := .f32) (A (ix1 k)) (A (ix1 k')) := by
  rw [val_main_v21_apply, val_main_call0_v1_apply, val_main_call0_v2_apply,
    front_read A _ k (by show 1 + k.val = k.val + 1; omega),
    front_read A _ k' (by show k.val = k'.val + 1; exact h)]

/-- The forward difference at a node before the last: the area downstream less its own. -/
private theorem fwdDiff_read (A : Arr) (k k' : Fin 4000000) (h : k'.val = k.val + 1) :
    val_main_v23 (F := Ideal) A (ix1 k) = FloatOps.subf (F := Ideal) (φ := .f32) (A (ix1 k')) (A (ix1 k)) := by
  rw [val_main_v23_apply, val_main_call1_v1_apply, val_main_call1_v2_apply,
    back_read A _ k' (by show 1 + k.val = k'.val; omega),
    back_read A _ k (by show k.val = k.val; rfl)]

/-- The forward difference at the last node: the last area less itself. -/
private theorem fwdDiff_read_last (A : Arr) :
    val_main_v23 (F := Ideal) A (ix1 (⟨3999999, by omega⟩ : Fin 4000000))
      = FloatOps.subf (F := Ideal) (φ := .f32) (A (ix1 (⟨3999999, by omega⟩ : Fin 4000000))) (A (ix1 (⟨3999999, by omega⟩ : Fin 4000000))) := by
  rw [val_main_v23_apply, val_main_call1_v1_apply, val_main_call1_v2_apply,
    back_read_last A _ (by show 1 + 3999999 = 4000000; omega),
    back_read A _ (⟨3999999, by omega⟩ : Fin 4000000) (by show 3999999 = 3999999; rfl)]

/-! ### The limiter, the face state and Manning's flux at one node -/

/-- The flux out of node `k` is Manning's law of the face state: the node's area plus half the slope limited between its
    two differences.  Every array operation on the way acts entry by entry, the parameters and constants being spread
    over the nodes unchanged. -/
private theorem flux_read (A : Arr) (wid man sl : Scl) (k : Fin 4000000) :
    val_main_v45 (F := Ideal) A wid man sl (ix1 k)
      = Cert.Plane.manning sl man wid (Cert.Plane.faceArea (Cert.Plane.areaAt A k)
          (Cert.Plane.minmod (fun _ => val_main_v21 (F := Ideal) A (ix1 k))
            (fun _ => val_main_v23 (F := Ideal) A (ix1 k)))) ix0 := by
  rw [val_main_v45_apply, val_main_v39_apply, val_main_v44_apply, val_main_v38_apply, val_main_v37_apply,
    val_main_v36_apply, val_main_v35_apply, val_main_v34_apply, val_main_v33_apply, val_main_v32_apply,
    val_main_call2_v1_apply, val_main_v26_apply, val_main_v25_apply]
  rfl

/-- The discharge at node `k` after the step is Manning's law of the updated area: the area plus the time step times
    the lateral inflow less the flux difference over the node spacing, not below zero. -/
private theorem discharge_read (A : Arr) (theta fcum rain dt wid man sl dx ks psi thetaS : Scl) (k : Fin 4000000) :
    val_main_v66 (F := Ideal) A theta fcum rain dt wid man sl dx ks psi thetaS (ix1 k)
      = Cert.Plane.manning sl man wid
          (maximumf (addf (Cert.Plane.areaAt A k)
            (mulf dt (subf (val_main_v19 (F := Ideal) A theta fcum rain dt wid ks psi thetaS)
              (Host.divf (subf (fun _ => val_main_v45 (F := Ideal) A wid man sl (ix1 k))
                (fun _ => val_main_v48 (F := Ideal) A wid man sl (ix1 k))) dx)))) Cert.Plane.zero) ix0 := by
  rw [val_main_v66_apply, val_main_v65_apply, val_main_v60_apply, val_main_v59_apply, val_main_v58_apply,
    val_main_v57_apply, val_main_v56_apply, val_main_v55_apply, val_main_v54_apply, val_main_v53_apply,
    val_main_v52_apply, val_main_v51_apply, val_main_v50_apply, val_main_v49_apply]
  rfl

/-! ### The outlet -/

/-- A real number less itself is zero, the value of the zero word. -/
private theorem sub_self_real (x : EReal) (h : ∃ r : ℝ, x = (r : EReal)) :
    FloatOps.subf (F := Ideal) (φ := .f32) x x = FloatOps.ofBits (F := Ideal) .f32 0x00000000#32 := by
  obtain ⟨r, rfl⟩ := h
  show (r : EReal) - (r : EReal) = Ideal.ofBits .f32 0x00000000#32
  rw [Ideal.ofBits_zero_f32, ← EReal.coe_sub, sub_self, EReal.coe_zero]

/-- The reference's discharge at the last node is the step's outflow from the last three areas. -/
private theorem outflow_eq (A : Arr) (theta fcum rain dt wid man sl dx ks psi thetaS : Scl)
    (hfin : ∃ r : ℝ, A (ix1 (⟨3999999, by decide⟩ : Fin 4000000)) = (r : EReal)) :
    val_main_v68 (F := Ideal) A theta fcum rain dt wid man sl dx ks psi thetaS
      = Cert.Plane.outflow (Cert.Plane.areaAt A ⟨3999997, by decide⟩) (Cert.Plane.areaAt A ⟨3999998, by decide⟩)
          (Cert.Plane.areaAt A ⟨3999999, by decide⟩)
          (val_main_v19 (F := Ideal) A theta fcum rain dt wid ks psi thetaS) dt dx sl man wid := by
  funext i
  obtain rfl : i = ix0 := eq_ix0 i
  unfold val_main_v68
  rw [shapeCast_apply _ shapeCasts_S1_S_ ix0 (ix1 (⟨0, by omega⟩ : Fin 1))
    (by rw [Shape.rowMajor_val_one]; rfl)]
  rw [val_main_v67_apply]
  have e : idx_main_v67 (ix1 (⟨0, by omega⟩ : Fin 1)) = ix1 (⟨3999999, by omega⟩ : Fin 4000000) := by
    funext a
    match a with
    | ⟨0, _⟩ => exact Fin.ext (by show 3999999 + 0 = 3999999; omega)
  rw [e, discharge_read,
    inflow_read A wid man sl _ (⟨3999998, by omega⟩ : Fin 4000000) (by show 3999999 = 3999998 + 1; omega),
    flux_read A wid man sl ⟨3999999, by omega⟩, flux_read A wid man sl ⟨3999998, by omega⟩,
    backDiff_read A ⟨3999999, by omega⟩ ⟨3999998, by omega⟩ (by show 3999999 = 3999998 + 1; omega),
    backDiff_read A ⟨3999998, by omega⟩ ⟨3999997, by omega⟩ (by show 3999998 = 3999997 + 1; omega),
    fwdDiff_read A ⟨3999998, by omega⟩ ⟨3999999, by omega⟩ (by show 3999999 = 3999998 + 1; omega),
    fwdDiff_read_last, sub_self_real _ hfin]
  rfl

/-- The reference's three results are the hillslope step of the total area, the last three areas and the parameters, when the
    last area is a real number. -/
theorem result_eq (A : (⟨S4000000, .f32⟩ : BufTy).Contents (Elt Ideal))
    (theta fcum rain dt wid man sl dx ks psi thetaS : (⟨S_, .f32⟩ : BufTy).Contents (Elt Ideal))
    (hfin : ∃ r : ℝ, A (ix1 (⟨3999999, by decide⟩ : Fin 4000000)) = (r : EReal)) :
    val_main_v72 (F := Ideal) A theta fcum rain dt wid man sl dx ks psi thetaS
      = Cert.Plane.result bcast_S_S1 concatenates_S1_S1_S1_S3_d0 (Cert.Plane.totalArea A)
          (Cert.Plane.areaAt A ⟨3999997, by decide⟩) (Cert.Plane.areaAt A ⟨3999998, by decide⟩) (Cert.Plane.areaAt A ⟨3999999, by decide⟩)
          theta fcum rain dt wid man sl dx ks psi thetaS := by
  unfold val_main_v72 val_main_v69 val_main_v70 val_main_v71 Cert.Plane.result
  rw [outflow_eq A theta fcum rain dt wid man sl dx ks psi thetaS hfin, lateral_eq, val_main_v16, rate_eq]

end Cert.ReferenceIdeal.Outlet

end
-- ==== Proof.LastAreaReal.lean ====
/-
  Under the precondition every input is finite; in particular the area at the outlet node is a real number.

  The precondition is a conjunction of fourteen "all entries have absolute value below +∞" tests, one per
  argument, each an and-reduction of a one-bit array from 1. Its first conjunct is the test of the area array;
  an and-reduction equal to 1 has a 1 at every entry, and an extended real whose absolute value is below +∞ is
  neither +∞ nor −∞, hence a real.
-/
import proofs.«144539_j80857054314543_1_alg».proof.Defs
import proofs.«144539_j80857054314543_1_alg».proof.Proof.Gen.KernelIdeal
import proofs.«144539_j80857054314543_1_alg».proof.Proof.Gen.Pre_finite_inputs
import Idealize.ShloMosaic.Lib.ValueIdx
import Idealize.ShloMosaic.Lib.ReduceAll

noncomputable section

namespace Cert.KernelIdeal.LastArea

open Idealize.ShloMosaic Idealize.SL.Sem Idealize.ShloMosaic.ValueIdx

attribute [local instance] Cert.KernelIdeal.Gen.facts Cert.Pre_finite_inputs.Gen.facts

/-- The rank-0 shape has exactly one index. -/
private instance : Subsingleton Cert.Pre_finite_inputs.S_.Idx := ⟨fun a b => funext fun d => d.elim0⟩

/-- The f32 pattern with all-ones exponent, zero fraction and clear sign denotes +∞. -/
private theorem ofBits_inf : Ideal.ofBits .f32 0x7F800000#32 = (⊤ : EReal) := by
  simp [Ideal.ofBits, Ideal.ieee]

/-- An extended real whose absolute value max x (−x) is strictly below +∞ is a real number:
    at −∞ and at +∞ the absolute value is +∞ itself. -/
private theorem real_of_abs_lt_top (x : EReal)
    (hx : Ideal.cmp .olt (max x (-x)) (Ideal.ofBits .f32 0x7F800000#32) = 1#1) :
    ∃ r : ℝ, x = (r : EReal) := by
  rw [ofBits_inf] at hx
  induction x using EReal.rec with
  | bot => simp [Ideal.cmp] at hx
  | coe r => exact ⟨r, rfl⟩
  | top => simp [Ideal.cmp] at hx

/-- The precondition makes the last node's area a real number. -/
theorem last_area_real (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : ℝ, m ((c.tc : Thread Cert.KernelIdeal.nD Cert.KernelIdeal.τ).loc Cert.KernelIdeal.main_arg0) (ix1 (⟨3999999, by decide⟩ : Fin 4000000)) = (r : EReal) := by
  -- the predicate at its single index, as the nested conjunction of the fourteen tests
  have e := congrFun (h c) ix0
  unfold Cert.Pre_finite_inputs.fn Cert.Pre_finite_inputs.fn_part1 Cert.Pre_finite_inputs.fn_part2 Cert.Pre_finite_inputs.fn_part3 at e
  dsimp only at e
  -- a one-bit and is 1 exactly when both sides are: keep the innermost left conjunct, the area array's test
  simp only [andi, IntOp.andi_eq_one] at e
  obtain ⟨⟨⟨⟨⟨⟨⟨⟨⟨⟨⟨⟨⟨h0, -⟩, -⟩, -⟩, -⟩, -⟩, -⟩, -⟩, -⟩, -⟩, -⟩, -⟩, -⟩, -⟩ := e
  -- an and-reduction over every axis that is 1 has a 1 at each entry: |area[3999999]| < +∞
  have hx := Host.reduce_andi_all _ _ _ _ _ h0 (ix1 (⟨3999999, by decide⟩ : Fin 4000000))
  exact real_of_abs_lt_top _ hx

end Cert.KernelIdeal.LastArea

end
-- ==== Proof.lean ====
/-
  One explicit step of a hillslope model — Green–Ampt infiltration from the mean water depth, then a MUSCL kinematic-wave update
  with the minmod limiter and Manning's law — reported as three numbers: the discharge at the outlet node, the infiltration rate
  and the infiltration depth.

  The kernel computes the one quantity that needs all four million areas, their sum, on the chip: ten slabs of 3125 × 128
  areas streamed through a one-entry running sum; everything else it does on single numbers, using that the discharge at the
  last node depends on the last three areas only.  The reference carries the update as whole arrays and reads its last entry.
  Over the extended reals a sum does not depend on its grouping, and the reference's array operations act entry by entry, so the
  two agree; the one place that uses the precondition is the outlet's forward difference, which the reference forms as the last
  area minus itself and the kernel writes as zero: equal because that area is a real number.

  Frames: the two summing programs (the printed one at the word level, its reading over the extended reals) run their region
  with the running sum carried from point to point and then their scalar lines, none of which touches an argument; the reference
  is a straight line of host operations read back by stretches.  The idealization rewrote nothing, so `preserves` is trivial.
-/
import proofs.«144539_j80857054314543_1_alg».proof.Defs
import proofs.«144539_j80857054314543_1_alg».proof.Proof.Gen.Kernel
import proofs.«144539_j80857054314543_1_alg».proof.Proof.Gen.KernelIdeal
import proofs.«144539_j80857054314543_1_alg».proof.Proof.Gen.ReferenceIdeal
import proofs.«144539_j80857054314543_1_alg».proof.Proof.Gen.Pre_finite_inputs
import proofs.«144539_j80857054314543_1_alg».proof.Proof.KernelFrame
import proofs.«144539_j80857054314543_1_alg».proof.Proof.IdealValue
import proofs.«144539_j80857054314543_1_alg».proof.Proof.RefFrame
import proofs.«144539_j80857054314543_1_alg».proof.Proof.RefOutlet
import proofs.«144539_j80857054314543_1_alg».proof.Proof.LastAreaReal

noncomputable section

namespace Cert.Proof

open Idealize.ShloMosaic Idealize.SL.Sem

/-- The printed program runs to its end and keeps its arguments. -/
theorem frame_k : Cert.frame_Kernel := fun m ρ _ => Cert.Kernel.Around.frame m ρ

/-- So does its reading over the extended reals. -/
theorem frame_ki : Cert.frame_KernelIdeal := fun m ρ _ => Cert.KernelIdeal.Around.frame m ρ

/-- Both idealized programs end at the hillslope step of the total area, the last three areas and the parameters: the kernel by
    its running sum and its scalar lines, the reference by its last entry; the arguments agree, and the last area is real. -/
theorem algebraic : Cert.algebraic_KernelIdeal_ReferenceIdeal := by
  intro m ρ m' ρ' hpre hagree
  refine ⟨_, Cert.KernelIdeal.Outlet.run m ρ, ?_⟩
  refine (θ_run Cert.ReferenceIdeal.defs _ _).mono (fun r h c => ⟨(h c).1.trans ?_, (h c).2⟩)
    (Cert.ReferenceIdeal.Stretches.run (F := Ideal) m' ρ')
  obtain ⟨h0, h1, h2, h3, h4, -, h6, h7, h8, h9, h10, h11, h12, -⟩ := hagree c
  rw [h0, h1, h2, h3, h4, h6, h7, h8, h9, h10, h11, h12]
  exact Cert.ReferenceIdeal.Outlet.result_eq _ _ _ _ _ _ _ _ _ _ _ _ (Cert.KernelIdeal.LastArea.last_area_real m hpre c)

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
